-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg14 : IVec S800000 32) (main_arg15 : IVec S800000 32) (main_v63 : IVec S_ 1) (main_v67 : IVec S_ 1) : IVec S_ 1 :=
  let main_v68 : IVec S_ 1 := andi main_v63 main_v67
  let main_c_26 : IVec S_ 32 := constantI S_ 32 0#32
  let main_v69 : IVec S800000 32 := broadcastInDim S800000 ![] bcast_S_S800000 main_c_26
  let main_v70 : IVec S800000 1 := cmpi .sge main_arg14 main_v69
  let main_c_27 : IVec S_ 1 := constantI S_ 1 1#1
  let main_v71 : IVec S_ 1 := (fun x v => Host.reduce IntOp.andi x v reducesTo_S800000_S_d0 h_S_) main_v70 main_c_27
  let main_v72 : IVec S_ 1 := andi main_v68 main_v71
  let main_c_28 : IVec S_ 32 := constantI S_ 32 50000#32
  let main_v73 : IVec S800000 32 := broadcastInDim S800000 ![] bcast_S_S800000 main_c_28
  let main_v74 : IVec S800000 1 := cmpi .slt main_arg14 main_v73
  let main_c_29 : IVec S_ 1 := constantI S_ 1 1#1
  let main_v75 : IVec S_ 1 := (fun x v => Host.reduce IntOp.andi x v reducesTo_S800000_S_d0 h_S_) main_v74 main_c_29
  let main_v76 : IVec S_ 1 := andi main_v72 main_v75
  let main_c_30 : IVec S_ 32 := constantI S_ 32 0#32
  let main_v77 : IVec S800000 32 := broadcastInDim S800000 ![] bcast_S_S800000 main_c_30
  let main_v78 : IVec S800000 1 := cmpi .sge main_arg15 main_v77
  let main_c_31 : IVec S_ 1 := constantI S_ 1 1#1
  let main_v79 : IVec S_ 1 := (fun x v => Host.reduce IntOp.andi x v reducesTo_S800000_S_d0 h_S_) main_v78 main_c_31
  let main_v80 : IVec S_ 1 := andi main_v76 main_v79
  let main_c_32 : IVec S_ 32 := constantI S_ 32 50000#32
  let main_v81 : IVec S800000 32 := broadcastInDim S800000 ![] bcast_S_S800000 main_c_32
  let main_v82 : IVec S800000 1 := cmpi .slt main_arg15 main_v81
  let main_c_33 : IVec S_ 1 := constantI S_ 1 1#1
  let main_v83 : IVec S_ 1 := (fun x v => Host.reduce IntOp.andi x v reducesTo_S800000_S_d0 h_S_) main_v82 main_c_33
  fn_part5 (F := F) main_v80 main_v83

def fn_part3 {F : FTy → Type} [FloatOps F] (main_arg11 : FVec F S128 .f32) (main_arg12 : FVec F S128x64 .f32) (main_arg13 : FVec F S64 .f32) (main_arg14 : IVec S800000 32) (main_arg15 : IVec S800000 32) (main_v48 : IVec S_ 1) (main_v49 : FVec F S192x128 .f32) (main_v50 : FVec F S192x128 .f32) : IVec S_ 1 :=
  let main_v51 : IVec S192x128 1 := cmpf .olt main_v49 main_v50
  let main_c_19 : IVec S_ 1 := constantI S_ 1 1#1
  let main_v52 : IVec S_ 1 := (fun x v => Host.reduce IntOp.andi x v reducesTo_S192x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S192x128 .f32) (main_arg11 : FVec F S128 .f32) (main_arg12 : FVec F S128x64 .f32) (main_arg13 : FVec F S64 .f32) (main_arg14 : IVec S800000 32) (main_arg15 : IVec S800000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S192x128 .f32 := Host.absf main_arg10
  let main_cst_18 : FVec F S_ .f32 := constant S_ .f32 0x7F800000#32
  let main_v50 : FVec F S192x128 .f32 := broadcastInDim S192x128 ![] bcast_S_S192x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S192x128 .f32) (main_arg7 : FVec F S128 .f32) (main_arg8 : FVec F S128x128 .f32) (main_arg9 : FVec F S128 .f32) (main_arg10 : FVec F S192x128 .f32) (main_arg11 : FVec F S128 .f32) (main_arg12 : FVec F S128x64 .f32) (main_arg13 : FVec F S64 .f32) (main_arg14 : IVec S800000 32) (main_arg15 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x128 .f32 := Host.absf main_arg6
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x64 .f32) (main_arg1 : FVec F S800000x64 .f32) (main_arg2 : FVec F S192x128 .f32) (main_arg3 : FVec F S128 .f32) (main_arg4 : FVec F S128x128 .f32) (main_arg5 : FVec F S128 .f32) (main_arg6 : FVec F S192x128 .f32) (main_arg7 : FVec F S128 .f32) (main_arg8 : FVec F S128x128 .f32) (main_arg9 : FVec F S128 .f32) (main_arg10 : FVec F S192x128 .f32) (main_arg11 : FVec F S128 .f32) (main_arg12 : FVec F S128x64 .f32) (main_arg13 : FVec F S64 .f32) (main_arg14 : IVec S800000 32) (main_arg15 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x128 : Shape := ⟨2, ![1, 128]⟩
abbrev S800000x128 : Shape := ⟨2, ![800000, 128]⟩
abbrev S4000x64 : Shape := ⟨2, ![4000, 64]⟩
abbrev S4000x128 : Shape := ⟨2, ![4000, 128]⟩
abbrev S64x128 : Shape := ⟨2, ![64, 128]⟩
abbrev S1600000x128 : Shape := ⟨2, ![1600000, 128]⟩
abbrev S1600000 : Shape := ⟨1, ![1600000]⟩
abbrev S50000x128 : Shape := ⟨2, ![50000, 128]⟩
abbrev S1600000x1 : Shape := ⟨2, ![1600000, 1]⟩
abbrev S1x64 : Shape := ⟨2, ![1, 64]⟩
abbrev S5000x128 : Shape := ⟨2, ![5000, 128]⟩
abbrev S5000x64 : Shape := ⟨2, ![5000, 64]⟩

abbrev nBuf : Space → Nat
  | .hbm => 78
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S192x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S192x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x64, .f32⟩
  | .hbm, ⟨35, _⟩ => ⟨S800000x64, .i1⟩
  | .hbm, ⟨36, _⟩ => ⟨S_, .f32⟩
  | .hbm, ⟨37, _⟩ => ⟨S800000x64, .f32⟩
  | .hbm, ⟨38, _⟩ => ⟨S800000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x64, .f32⟩
  | .hbm, ⟨58, _⟩ => ⟨S800000x64, .i1⟩
  | .hbm, ⟨59, _⟩ => ⟨S_, .f32⟩
  | .hbm, ⟨60, _⟩ => ⟨S800000x64, .f32⟩
  | .hbm, ⟨61, _⟩ => ⟨S800000x64, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S800000x128, .bf16⟩
  | .hbm, ⟨67, _⟩ => ⟨S800000x128, .bf16⟩
  | .hbm, ⟨68, _⟩ => ⟨S1600000x128, .bf16⟩
  | .hbm, ⟨69, _⟩ => ⟨S1600000x128, .f32⟩
  | .hbm, ⟨70, _⟩ => ⟨S1600000, .i32⟩
  | .hbm, ⟨71, _⟩ => ⟨S_, .f32⟩
  | .hbm, ⟨72, _⟩ => ⟨S50000x128, .f32⟩
  | .hbm, ⟨73, _⟩ => ⟨S1600000x1, .i32⟩
  | .hbm, ⟨74, _⟩ => ⟨S50000x128, .f32⟩
  | .hbm, ⟨75, _⟩ => ⟨S1x128, .f32⟩
  | .hbm, ⟨76, _⟩ => ⟨S1x64, .f32⟩
  | .hbm, ⟨77, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S192x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S192x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .bf16⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S5000x128, .f32⟩
  | .local _ .vmem, ⟨19, _⟩ => ⟨S5000x128, .f32⟩
  | .local _ .vmem, ⟨20, _⟩ => ⟨S5000x64, .f32⟩
  | .local _ .vmem, ⟨21, _⟩ => ⟨S5000x64, .f32⟩
  | .local _ .vmem, ⟨22, _⟩ => ⟨S192x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6_0 : Ref sig .tc := ⟨.hbm, 66, rfl⟩
abbrev main_v6_1 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_cst : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S192x128_S64x128_0_0 : ∀ a, (![0, 0] : Fin 2 → Nat) a + S64x128.size a ≤ S192x128.size a
  h_S64x128 : 0 < S64x128.numel
  inb_S192x128_S64x128_64_0 : ∀ a, (![64, 0] : Fin 2 → Nat) a + S64x128.size a ≤ S192x128.size a
  inb_S192x128_S64x128_128_0 : ∀ a, (![128, 0] : Fin 2 → Nat) a + S64x128.size a ≤ S192x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  concatenates_S800000x128_S800000x128_S1600000x128_d0 : Shape.Concatenates [S800000x128, S800000x128] S1600000x128 0
  concatenates_S800000_S800000_S1600000_d0 : Shape.Concatenates [S800000, S800000] S1600000 0
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  inb_S192x128_S128x128_0_0 : ∀ a, (![0, 0] : Fin 2 → Nat) a + S128x128.size a ≤ S192x128.size a
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x128.size a ≤ S192x128.size a
  hwx0_7 : ∀ i : grid0.Coords, EltTy.bits .f32 = 32 ∨ (Rect.block (s := S192x128) S192x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .bf16 = 32 ∨ (Rect.block (s := S800000x128) S4000x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S800000x128.size a
  hwx0_12 : ∀ i : grid0.Coords, EltTy.bits .bf16 = 32 ∨ (Rect.block (s := S800000x128) S4000x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x128.size a ≤ S192x128.size a
  hwx1_2 : ∀ i : grid1.Coords, EltTy.bits .f32 = 32 ∨ (Rect.block (s := S192x128) S192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S192x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S4000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S192x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S192x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x192, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x192, .f32⟩
  | .hbm, ⟨69, _⟩ => ⟨S800000x128, .f32⟩
  | .hbm, ⟨70, _⟩ => ⟨S1x128, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S1x128, .f32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x128, .f32⟩
  | .hbm, ⟨85, _⟩ => ⟨S50000x192, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_cst : Ref sig .tc := ⟨.hbm, 90, rfl⟩
abbrev main_call2_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x64_S50000x192_d1 : Shape.Concatenates [S50000x128, S50000x64] S50000x192 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.Spec.lean ====
/-
  One round of message passing on a graph, as functions of one node or one edge at a time, over the extended reals.

  Every edge e carries a row of edge features and two node numbers, "from" and "to". Its forward message is a two-layer
  perceptron of the three rows (from-node state, to-node state, edge features): the first layer's 192-row weight is read
  as three 64-row slabs, one per row, the three partial products added, the bias added, negative parts cut to zero, then
  the second layer and its bias. The reverse message is the same perceptron with the two node rows exchanged and its own
  weights. A node collects the forward messages of the edges pointing TO it and the reverse messages of the edges pointing
  FROM it, and its new state is its old one plus a two-layer perceptron of (collected messages, old state), the first
  layer's weight read as a 128-row slab and a 64-row slab.

  A node number is read as a signed 32-bit integer; a negative one counts from the end of the table (50000 is added), and
  the row read is then clamped into the table. An edge is collected by node n when its raw node number equals n.
-/
import Idealize.ShloMosaic.PureOps.Ideal
import Idealize.ShloMosaic.Lib.ValueIdx
import proofs.«426496_j90744069030597_2_alg».proof.Proof.LibRowGather

noncomputable section

namespace Cert.GraphProp

open Idealize.ShloMosaic Idealize.ShloMosaic.ValueIdx

/-- Row a of the first 64-row slab of a 192-row weight. -/
def lo (a : Fin 64) : Fin 192 := ⟨a.val, by omega⟩
/-- Row a of the second 64-row slab. -/
def mid (a : Fin 64) : Fin 192 := ⟨64 + a.val, by omega⟩
/-- Row a of the third 64-row slab. -/
def hi (a : Fin 64) : Fin 192 := ⟨128 + a.val, by omega⟩
/-- Row a of the leading 128-row slab. -/
def lo128 (a : Fin 128) : Fin 192 := ⟨a.val, by omega⟩

/-- One edge's message at feature j, from its three rows x, y, z. -/
def edgeMsg (x y z : Fin 64 → EReal) (W1 : Fin 192 → Fin 128 → EReal) (b1 : Fin 128 → EReal)
    (W2 : Fin 128 → Fin 128 → EReal) (b2 : Fin 128 → EReal) (j : Fin 128) : EReal :=
  (∑ k : Fin 128, max ((((∑ a : Fin 64, x a * W1 (lo a) k) + ∑ a : Fin 64, y a * W1 (mid a) k)
      + ∑ a : Fin 64, z a * W1 (hi a) k) + b1 k) 0 * W2 k j) + b2 j

/-- One node's new state at feature j, from its collected messages g and its old state s. -/
def nodeOut (g : Fin 128 → EReal) (s : Fin 64 → EReal) (Wn1 : Fin 192 → Fin 128 → EReal) (bn1 : Fin 128 → EReal)
    (Wn2 : Fin 128 → Fin 64 → EReal) (bn2 : Fin 64 → EReal) (j : Fin 64) : EReal :=
  s j + ((∑ k : Fin 128, max (((∑ a : Fin 128, g a * Wn1 (lo128 a) k) + ∑ a : Fin 64, s a * Wn1 (hi a) k) + bn1 k) 0
      * Wn2 k j) + bn2 j)

/-- A node number with a negative one counted from the end of the 50000-row table. -/
def wrap (i : BitVec 32) : BitVec 32 := Scalar.select (IntOp.cmpi .slt i 0#32) (IntOp.addi i 50000#32) i
/-- The table row a node number reads. -/
def rowOf (i : BitVec 32) : Fin 50000 := RowGather.clampRow 50000 (by decide) (wrap i)

/-- What node n collects at one feature: the forward messages mf of the edges whose "to" number is n, plus the reverse
    messages mr of those whose "from" number is n (each sum started from zero). -/
def collect (mf mr : Fin 800000 → EReal) (ti fi : Fin 800000 → BitVec 32) (n : Fin 50000) : EReal :=
  (0 + ∑ e : Fin 800000, if (ti e).toInt = (n.val : ℤ) then mf e else 0)
    + (0 + ∑ e : Fin 800000, if (fi e).toInt = (n.val : ℤ) then mr e else 0)

/-- The layer's sixteen inputs, as functions of coordinates. -/
structure Inputs where
  N : Fin 50000 → Fin 64 → EReal
  E : Fin 800000 → Fin 64 → EReal
  W1f : Fin 192 → Fin 128 → EReal
  b1f : Fin 128 → EReal
  W2f : Fin 128 → Fin 128 → EReal
  b2f : Fin 128 → EReal
  W1r : Fin 192 → Fin 128 → EReal
  b1r : Fin 128 → EReal
  W2r : Fin 128 → Fin 128 → EReal
  b2r : Fin 128 → EReal
  Wn1 : Fin 192 → Fin 128 → EReal
  bn1 : Fin 128 → EReal
  Wn2 : Fin 128 → Fin 64 → EReal
  bn2 : Fin 64 → EReal
  fi : Fin 800000 → BitVec 32
  ti : Fin 800000 → BitVec 32

namespace Inputs

/-- Edge e's forward message. -/
def msgF (I : Inputs) (e : Fin 800000) (j : Fin 128) : EReal :=
  edgeMsg (I.N (rowOf (I.fi e))) (I.N (rowOf (I.ti e))) (I.E e) I.W1f I.b1f I.W2f I.b2f j
/-- Edge e's reverse message. -/
def msgR (I : Inputs) (e : Fin 800000) (j : Fin 128) : EReal :=
  edgeMsg (I.N (rowOf (I.ti e))) (I.N (rowOf (I.fi e))) (I.E e) I.W1r I.b1r I.W2r I.b2r j
/-- What node n collects. -/
def agg (I : Inputs) (n : Fin 50000) (a : Fin 128) : EReal :=
  collect (fun e => I.msgF e a) (fun e => I.msgR e a) I.ti I.fi n
/-- Node n's new state. -/
def out (I : Inputs) (n : Fin 50000) (j : Fin 64) : EReal :=
  nodeOut (I.agg n) (I.N n) I.Wn1 I.bn1 I.Wn2 I.bn2 j

end Inputs

/-- The inputs read off sixteen arrays of the programs' shapes. -/
def mkInputs (x0 : (⟨2, ![50000, 64]⟩ : Shape).Idx → EReal) (x1 : (⟨2, ![800000, 64]⟩ : Shape).Idx → EReal)
    (x2 : (⟨2, ![192, 128]⟩ : Shape).Idx → EReal) (x3 : (⟨1, ![128]⟩ : Shape).Idx → EReal)
    (x4 : (⟨2, ![128, 128]⟩ : Shape).Idx → EReal) (x5 : (⟨1, ![128]⟩ : Shape).Idx → EReal)
    (x6 : (⟨2, ![192, 128]⟩ : Shape).Idx → EReal) (x7 : (⟨1, ![128]⟩ : Shape).Idx → EReal)
    (x8 : (⟨2, ![128, 128]⟩ : Shape).Idx → EReal) (x9 : (⟨1, ![128]⟩ : Shape).Idx → EReal)
    (x10 : (⟨2, ![192, 128]⟩ : Shape).Idx → EReal) (x11 : (⟨1, ![128]⟩ : Shape).Idx → EReal)
    (x12 : (⟨2, ![128, 64]⟩ : Shape).Idx → EReal) (x13 : (⟨1, ![64]⟩ : Shape).Idx → EReal)
    (x14 x15 : (⟨1, ![800000]⟩ : Shape).Idx → BitVec 32) : Inputs where
  N := fun n a => x0 (ix2 n a)
  E := fun e a => x1 (ix2 e a)
  W1f := fun r k => x2 (ix2 r k)
  b1f := fun k => x3 (ix1 k)
  W2f := fun k j => x4 (ix2 k j)
  b2f := fun j => x5 (ix1 j)
  W1r := fun r k => x6 (ix2 r k)
  b1r := fun k => x7 (ix1 k)
  W2r := fun k j => x8 (ix2 k j)
  b2r := fun j => x9 (ix1 j)
  Wn1 := fun r k => x10 (ix2 r k)
  bn1 := fun k => x11 (ix1 k)
  Wn2 := fun k j => x12 (ix2 k j)
  bn2 := fun j => x13 (ix1 j)
  fi := fun e => x14 (ix1 e)
  ti := fun e => x15 (ix1 e)

end Cert.GraphProp

end
-- ==== Proof.KArgs.lean ====
/-
  The kernel program's sixteen argument arrays on a core, by their literal types, and the layer's inputs read off them.
-/
import proofs.«426496_j90744069030597_2_alg».proof.Proof.Gen.KernelIdeal.Frame
import proofs.«426496_j90744069030597_2_alg».proof.Proof.Spec
import Idealize.ShloMosaic.Lib.ValueIdx

noncomputable section

namespace Cert.KernelIdeal.Args

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

abbrev a0 (c : Dev nD) : FVec Ideal S50000x64 .f32 := m ((c : Thread nD τ).loc main_arg0)
abbrev a1 (c : Dev nD) : FVec Ideal S800000x64 .f32 := m ((c : Thread nD τ).loc main_arg1)
abbrev a2 (c : Dev nD) : FVec Ideal S192x128 .f32 := m ((c : Thread nD τ).loc main_arg2)
abbrev a3 (c : Dev nD) : FVec Ideal S128 .f32 := m ((c : Thread nD τ).loc main_arg3)
abbrev a4 (c : Dev nD) : FVec Ideal S128x128 .f32 := m ((c : Thread nD τ).loc main_arg4)
abbrev a5 (c : Dev nD) : FVec Ideal S128 .f32 := m ((c : Thread nD τ).loc main_arg5)
abbrev a6 (c : Dev nD) : FVec Ideal S192x128 .f32 := m ((c : Thread nD τ).loc main_arg6)
abbrev a7 (c : Dev nD) : FVec Ideal S128 .f32 := m ((c : Thread nD τ).loc main_arg7)
abbrev a8 (c : Dev nD) : FVec Ideal S128x128 .f32 := m ((c : Thread nD τ).loc main_arg8)
abbrev a9 (c : Dev nD) : FVec Ideal S128 .f32 := m ((c : Thread nD τ).loc main_arg9)
abbrev a10 (c : Dev nD) : FVec Ideal S192x128 .f32 := m ((c : Thread nD τ).loc main_arg10)
abbrev a11 (c : Dev nD) : FVec Ideal S128 .f32 := m ((c : Thread nD τ).loc main_arg11)
abbrev a12 (c : Dev nD) : FVec Ideal S128x64 .f32 := m ((c : Thread nD τ).loc main_arg12)
abbrev a13 (c : Dev nD) : FVec Ideal S64 .f32 := m ((c : Thread nD τ).loc main_arg13)
abbrev a14 (c : Dev nD) : IVec S800000 32 := m ((c : Thread nD τ).loc main_arg14)
abbrev a15 (c : Dev nD) : IVec S800000 32 := m ((c : Thread nD τ).loc main_arg15)

/-- The layer's inputs as the kernel program is launched with them on core c. -/
def inputs (c : Dev nD) : GraphProp.Inputs :=
  GraphProp.mkInputs (a0 m c) (a1 m c) (a2 m c) (a3 m c) (a4 m c) (a5 m c) (a6 m c) (a7 m c) (a8 m c) (a9 m c)
    (a10 m c) (a11 m c) (a12 m c) (a13 m c) (a14 m c) (a15 m c)

/-- Every node number of an index array lies in the table: 0 ≤ i < 50000. -/
def InRange (x : IVec S800000 32) : Prop := ∀ e : Fin 800000, 0 ≤ (x (ix1 e)).toInt ∧ (x (ix1 e)).toInt < 50000

end Cert.KernelIdeal.Args

end
-- ==== Proof.Laws.lean ====
/-
  Three ways of cutting a finite sum over the extended reals: over 192 rows as three slabs of 64, over 192 rows as a slab
  of 128 and a slab of 64, and over 1600000 rows as two halves of 800000. Addition of extended reals is commutative and
  associative, so each is a regrouping and needs nothing about finiteness.
-/
import proofs.«426496_j90744069030597_2_alg».proof.Proof.Spec

namespace Cert.GraphProp

/-- A sum over 192 rows is the sum over a 128-row slab plus the sum over the 64-row slab after it. -/
theorem sum192_two (f : Fin 192 → EReal) :
    ∑ a : Fin 192, f a = (∑ a : Fin 128, f (lo128 a)) + ∑ a : Fin 64, f (hi a) := by
  have h := Fin.sum_univ_add (M := EReal) (a := 128) (b := 64) f
  rw [h]
  congr 1

/-- A sum over 128 rows is the sum over its two 64-row halves. -/
theorem sum128_two (g : Fin 128 → EReal) :
    ∑ a : Fin 128, g a = (∑ a : Fin 64, g ⟨a.val, by omega⟩) + ∑ a : Fin 64, g ⟨64 + a.val, by omega⟩ := by
  have h := Fin.sum_univ_add (M := EReal) (a := 64) (b := 64) g
  rw [h]
  congr 1

/-- A sum over 192 rows is the sum of the sums over its three 64-row slabs, grouped from the left. -/
theorem sum192_three (f : Fin 192 → EReal) :
    ∑ a : Fin 192, f a = ((∑ a : Fin 64, f (lo a)) + ∑ a : Fin 64, f (mid a)) + ∑ a : Fin 64, f (hi a) := by
  rw [sum192_two f, sum128_two (fun a => f (lo128 a))]
  congr 1

/-- Row e of the first half of 1600000 rows. -/
def firstHalf (e : Fin 800000) : Fin 1600000 := ⟨e.val, by omega⟩
/-- Row e of the second half. -/
def secondHalf (e : Fin 800000) : Fin 1600000 := ⟨800000 + e.val, by omega⟩

/-- A sum over 1600000 rows is the sum over the first 800000 plus the sum over the last 800000. -/
theorem sum_two_halves (f : Fin 1600000 → EReal) :
    ∑ r : Fin 1600000, f r = (∑ e : Fin 800000, f (firstHalf e)) + ∑ e : Fin 800000, f (secondHalf e) := by
  have h := Fin.sum_univ_add (M := EReal) (a := 800000) (b := 800000) f
  rw [h]
  congr 1

end Cert.GraphProp
-- ==== Proof.EdgeRegion.lean ====
/-
  The edge region's two output arrays, entry by entry. The region cuts the 800000 edges into 200 blocks of 4000; block t
  of each output is the perceptron of block t of the three row arrays and of the whole weights, and the blocks tile the
  array, so entry (e, j) of the forward output is edge e's forward message at feature j, and the same for the reverse one
  with the two node rows exchanged.
-/
import proofs.«426496_j90744069030597_2_alg».proof.Proof.Gen.KernelIdeal.Frame
import proofs.«426496_j90744069030597_2_alg».proof.Proof.Spec
import proofs.«426496_j90744069030597_2_alg».proof.Proof.Laws
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.EdgeRegion

open Cert.KernelIdeal Cert.KernelIdeal.Gen Idealize.ShloMosaic Idealize.ShloMosaic.TcCoe Idealize.ShloMosaic.ValueIdx Idealize.SL.Sem

/-! ## A block product at an entry

Both products of the perceptron contract the left operand's columns against the right operand's rows, so entry (p, k)
of a product is the sum over the contracted position a of left (p, a) times right (a, k). The four facts below say, for
each of the two product shapes, which coordinate of which operand the output index and the contracted position give. -/

theorem lhs64_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs64_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs64_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs64_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, k) of a 4000×64 by 64×128 product started from zero. -/
theorem prod64_at (L : FVec Ideal S4000x64 .bf16) (R : FVec Ideal S64x128 .bf16) (p : Fin 4000) (k : Fin 128) :
    matmul dot_S4000x64_S64x128_S4000x128_1_0_0_1_n_n none L R (constant (F := Ideal) S4000x128 .f32 0x00000000#32) (ix2 p k)
      = ∑ a : Fin 64, L (ix2 p a) * R (ix2 a k) := by
  show FloatOps.matmul dot_S4000x64_S64x128_S4000x128_1_0_0_1_n_n none L R (constant (F := Ideal) S4000x128 .f32 0x00000000#32) (ix2 p k) = _
  rw [Ideal.matmul_constant_zero_apply, ← Equiv.sum_comp (ValueIdx.contrEquiv1 dot_S4000x64_S64x128_S4000x128_1_0_0_1_n_n 64 rfl rfl).symm]
  refine Finset.sum_congr rfl fun a _ => ?_
  have hk := ValueIdx.contrEquiv1_symm_val dot_S4000x64_S64x128_S4000x128_1_0_0_1_n_n 64 rfl rfl a
  have el : dot_S4000x64_S64x128_S4000x128_1_0_0_1_n_n.lhsIdx (ix2 p k) ((ValueIdx.contrEquiv1 dot_S4000x64_S64x128_S4000x128_1_0_0_1_n_n 64 rfl rfl).symm a) = ix2 p a := funext fun d => Fin.ext (by
    match d with
    | ⟨0, _⟩ => exact lhs64_0 _ _
    | ⟨1, _⟩ => exact (lhs64_1 _ _).trans hk)
  have er : dot_S4000x64_S64x128_S4000x128_1_0_0_1_n_n.rhsIdx (ix2 p k) ((ValueIdx.contrEquiv1 dot_S4000x64_S64x128_S4000x128_1_0_0_1_n_n 64 rfl rfl).symm a) = ix2 a k := funext fun d => Fin.ext (by
    match d with
    | ⟨0, _⟩ => exact (rhs64_0 _ _).trans hk
    | ⟨1, _⟩ => exact rhs64_1 _ _)
  rw [el, er]

/-- Entry (p, j) of a 4000×128 by 128×128 product started from zero. -/
theorem prod128_at (L : FVec Ideal S4000x128 .bf16) (R : FVec Ideal S128x128 .bf16) (p : Fin 4000) (j : Fin 128) :
    matmul dot_S4000x128_S128x128_S4000x128_1_0_0_1_n_n none L R (constant (F := Ideal) S4000x128 .f32 0x00000000#32) (ix2 p j)
      = ∑ k : Fin 128, L (ix2 p k) * R (ix2 k j) := by
  show FloatOps.matmul dot_S4000x128_S128x128_S4000x128_1_0_0_1_n_n none L R (constant (F := Ideal) S4000x128 .f32 0x00000000#32) (ix2 p j) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun d => Fin.ext (by
    match d with
    | ⟨0, _⟩ => exact lhs128_0 _ _
    | ⟨1, _⟩ => exact (lhs128_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun d => Fin.ext (by
    match d with
    | ⟨0, _⟩ => exact (rhs128_0 _ _).trans hk
    | ⟨1, _⟩ => exact rhs128_1 _ _)
  rw [el, er]

/-- A one-row bias spread down the 4000 rows reads, at (p, k), the bias at k. -/
theorem bias_at (b : FVec Ideal S1x128 .f32) (p : Fin 4000) (k : Fin 128) :
    broadcastTo S4000x128 b broadcasts_S1x128_S4000x128 (ix2 p k) = b (ix2 0 k) :=
  broadcastTo_apply b broadcasts_S1x128_S4000x128 (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

/-! ## The three slabs of a first-layer weight

The first layer's 192-row weight is loaded as three 64-row slabs starting at rows 0, 64 and 128: entry (a, k) of a slab
is row a of that slab of the weight. -/

theorem slab_lo (W : Vec Ideal S192x128 .f32) :
    View.ld W r0_1 = fun i : S64x128.Idx => W (ix2 (GraphProp.lo (i 0)) (i 1)) := by
  funext i
  show W (r0_1.idx i) = W (ix2 (GraphProp.lo (i 0)) (i 1))
  refine congrArg W (funext fun d => Fin.ext ?_)
  match d with
  | ⟨0, _⟩ => show 0 + 1 * (i 0).val = (i 0).val; omega
  | ⟨1, _⟩ => show 0 + 1 * (i 1).val = (i 1).val; omega

theorem slab_mid (W : Vec Ideal S192x128 .f32) :
    View.ld W r0_2 = fun i : S64x128.Idx => W (ix2 (GraphProp.mid (i 0)) (i 1)) := by
  funext i
  show W (r0_2.idx i) = W (ix2 (GraphProp.mid (i 0)) (i 1))
  refine congrArg W (funext fun d => Fin.ext ?_)
  match d with
  | ⟨0, _⟩ => show 64 + 1 * (i 0).val = 64 + (i 0).val; omega
  | ⟨1, _⟩ => show 0 + 1 * (i 1).val = (i 1).val; omega

theorem slab_hi (W : Vec Ideal S192x128 .f32) :
    View.ld W r0_3 = fun i : S64x128.Idx => W (ix2 (GraphProp.hi (i 0)) (i 1)) := by
  funext i
  show W (r0_3.idx i) = W (ix2 (GraphProp.hi (i 0)) (i 1))
  refine congrArg W (funext fun d => Fin.ext ?_)
  match d with
  | ⟨0, _⟩ => show 128 + 1 * (i 0).val = 128 + (i 0).val; omega
  | ⟨1, _⟩ => show 0 + 1 * (i 1).val = (i 1).val; omega

/-! ## The two payloads at an entry of a block

Narrowing to the short format and a cast to the same shape change nothing on extended reals, a product into a zero
accumulator is the plain sum, and the comparison with the zero word is the maximum with 0: entry (p, q) of a payload is
the perceptron of row p of the three row blocks. -/

/-- The forward payload over three separate slabs. -/
theorem payF_slabs (x y z : Vec Ideal S4000x64 .f32) (wa wb wc : Vec Ideal S64x128 .f32) (b1 : Vec Ideal S1x128 .f32)
    (w2 : Vec Ideal S128x128 .f32) (b2 : Vec Ideal S1x128 .f32) (p : Fin 4000) (q : Fin 128) :
    k0_pay1 (F := Ideal) (k0_pay3 x) (k0_pay4 y) (k0_pay5 z) (k0_pay6 wa) (k0_pay7 wb) (k0_pay8 wc) (k0_pay9 b1) (k0_pay10 w2) (k0_pay11 b2) (ix2 p q)
      = (∑ k : Fin 128, max ((((∑ a : Fin 64, x (ix2 p a) * wa (ix2 a k)) + ∑ a : Fin 64, y (ix2 p a) * wb (ix2 a k))
          + ∑ a : Fin 64, z (ix2 p a) * wc (ix2 a k)) + b1 (ix2 0 k)) 0 * w2 (ix2 k q)) + b2 (ix2 0 q) := by
  unfold k0_pay1 k0_pay3 k0_pay4 k0_pay5 k0_pay6 k0_pay7 k0_pay8 k0_pay9 k0_pay10 k0_pay11
  simp only [shapeCast_self]
  simp only [truncf_apply, addf_apply, maximumf_apply, broadcast_apply, prod64_at, prod128_at, bias_at, Ideal.ofBits_def, Ideal.ofBits_zero_f32]

/-- The reverse payload over three separate slabs: the first product takes the second row block. -/
theorem payR_slabs (x y z : Vec Ideal S4000x64 .f32) (wa wb wc : Vec Ideal S64x128 .f32) (b1 : Vec Ideal S1x128 .f32)
    (w2 : Vec Ideal S128x128 .f32) (b2 : Vec Ideal S1x128 .f32) (p : Fin 4000) (q : Fin 128) :
    k0_pay2 (F := Ideal) (k0_pay3 x) (k0_pay4 y) (k0_pay5 z) (k0_pay12 wa) (k0_pay13 wb) (k0_pay14 wc) (k0_pay15 b1) (k0_pay16 w2) b2 (ix2 p q)
      = (∑ k : Fin 128, max ((((∑ a : Fin 64, y (ix2 p a) * wa (ix2 a k)) + ∑ a : Fin 64, x (ix2 p a) * wb (ix2 a k))
          + ∑ a : Fin 64, z (ix2 p a) * wc (ix2 a k)) + b1 (ix2 0 k)) 0 * w2 (ix2 k q)) + b2 (ix2 0 q) := by
  unfold k0_pay2 k0_pay3 k0_pay4 k0_pay5 k0_pay12 k0_pay13 k0_pay14 k0_pay15 k0_pay16
  simp only [shapeCast_self]
  simp only [truncf_apply, addf_apply, maximumf_apply, broadcast_apply, prod64_at, prod128_at, bias_at, Ideal.ofBits_def, Ideal.ofBits_zero_f32]

/-- The forward payload at entry (p, q) of a block, the slabs loaded from one 192-row weight W. -/
theorem payF_at (x y z : Vec Ideal S4000x64 .f32) (W : Vec Ideal S192x128 .f32) (b1 : Vec Ideal S1x128 .f32)
    (w2 : Vec Ideal S128x128 .f32) (b2 : Vec Ideal S1x128 .f32) (p : Fin 4000) (q : Fin 128) :
    k0_pay1 (F := Ideal) (k0_pay3 x) (k0_pay4 y) (k0_pay5 z) (k0_pay6 (View.ld W r0_1)) (k0_pay7 (View.ld W r0_2)) (k0_pay8 (View.ld W r0_3)) (k0_pay9 b1) (k0_pay10 w2) (k0_pay11 b2) (ix2 p q)
      = GraphProp.edgeMsg (fun a => x (ix2 p a)) (fun a => y (ix2 p a)) (fun a => z (ix2 p a)) (fun r k => W (ix2 r k))
          (fun k => b1 (ix2 0 k)) (fun k j => w2 (ix2 k j)) (fun j => b2 (ix2 0 j)) q := by
  rw [slab_lo W, slab_mid W, slab_hi W]
  exact payF_slabs x y z _ _ _ b1 w2 b2 p q

/-- The reverse payload at entry (p, q) of a block: the two node row blocks exchanged. -/
theorem payR_at (x y z : Vec Ideal S4000x64 .f32) (W : Vec Ideal S192x128 .f32) (b1 : Vec Ideal S1x128 .f32)
    (w2 : Vec Ideal S128x128 .f32) (b2 : Vec Ideal S1x128 .f32) (p : Fin 4000) (q : Fin 128) :
    k0_pay2 (F := Ideal) (k0_pay3 x) (k0_pay4 y) (k0_pay5 z) (k0_pay12 (View.ld W r0_1)) (k0_pay13 (View.ld W r0_2)) (k0_pay14 (View.ld W r0_3)) (k0_pay15 b1) (k0_pay16 w2) b2 (ix2 p q)
      = GraphProp.edgeMsg (fun a => y (ix2 p a)) (fun a => x (ix2 p a)) (fun a => z (ix2 p a)) (fun r k => W (ix2 r k))
          (fun k => b1 (ix2 0 k)) (fun k j => w2 (ix2 k j)) (fun j => b2 (ix2 0 j)) q := by
  rw [slab_lo W, slab_mid W, slab_hi W]
  exact payR_slabs x y z _ _ _ b1 w2 b2 p q

/- the buffer contents when the region is entered -/
variable (V : (c : Dev nD) → (b : Ref sig .tc) → Buf (Elt Ideal) ((c : Thread nD τ).loc b))

/-- The region's eleven input arrays, by their literal types: rows of the "from" nodes, rows of the "to" nodes, edge
    features, and the two perceptrons' weights and (row-shaped) biases. -/
abbrev nfA (c : Dev nD) : FVec Ideal S800000x64 .f32 := V c main_v0
abbrev ntA (c : Dev nD) : FVec Ideal S800000x64 .f32 := V c main_v1
abbrev efA (c : Dev nD) : FVec Ideal S800000x64 .f32 := V c main_arg1
abbrev w1fA (c : Dev nD) : FVec Ideal S192x128 .f32 := V c main_arg2
abbrev b1fA (c : Dev nD) : FVec Ideal S1x128 .f32 := V c main_v2
abbrev w2fA (c : Dev nD) : FVec Ideal S128x128 .f32 := V c main_arg4
abbrev b2fA (c : Dev nD) : FVec Ideal S1x128 .f32 := V c main_v3
abbrev w1rA (c : Dev nD) : FVec Ideal S192x128 .f32 := V c main_arg6
abbrev b1rA (c : Dev nD) : FVec Ideal S1x128 .f32 := V c main_v4
abbrev w2rA (c : Dev nD) : FVec Ideal S128x128 .f32 := V c main_arg8
abbrev b2rA (c : Dev nD) : FVec Ideal S1x128 .f32 := V c main_v5
/-- The two output arrays after the region. -/
abbrev outF (c : Dev nD) : FVec Ideal S800000x128 .bf16 := (dat0 (F := Ideal) V c).arrAt 11 cfg0.N
abbrev outR (c : Dev nD) : FVec Ideal S800000x128 .bf16 := (dat0 (F := Ideal) V c).arrAt 12 cfg0.N

/-! ## Blocks of the arrays

The grid has 200 points; at point t the three row arrays and the two outputs have their block t (rows 4000 t to
4000 t + 3999, all columns), and every weight and bias its one block, the whole array. -/

theorem hz : (![0, 0] : Fin 2 → Nat) = fun _ => 0 := funext fun a => by fin_cases a <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

/-- Row p of block t is row 4000 t + p of an 800000-row array. -/
def rowAt (t : Fin cfg0.N) (p : Fin 4000) : Fin 800000 :=
  ⟨t.val * 4000 + p.val, by have h : t.val < 200 := Nat.lt_of_lt_of_eq t.isLt N_0; have := p.isLt; omega⟩

/-- Entry (p, a) of block t of the "from" rows is row 4000 t + p of the array. -/
theorem blk0_at (c : Dev nD) (t : Fin cfg0.N) (p : Fin 4000) (a : Fin 64) :
    (iblk0 V c 0 t : Vec Ideal S4000x64 .f32) (ix2 p a) = nfA V c (ix2 (rowAt t p) a) := by
  show V c main_v0 (((cfg0.win 0).blk t).view.emb (ix2 p a)) = V c main_v0 (ix2 (rowAt t p) a)
  refine congrArg (V c main_v0) (funext fun d => Fin.ext ?_)
  match d with
  | ⟨0, _⟩ => show win0_0.index t (0 : Fin 2) * 4000 + 1 * p.val = t.val * 4000 + p.val; rw [(idx0 t).1]; omega
  | ⟨1, _⟩ => show win0_0.index t (1 : Fin 2) * 64 + 1 * a.val = a.val; rw [(idx0 t).2]; omega

/-- The same for the "to" rows. -/
theorem blk1_at (c : Dev nD) (t : Fin cfg0.N) (p : Fin 4000) (a : Fin 64) :
    (iblk0 V c 1 t : Vec Ideal S4000x64 .f32) (ix2 p a) = ntA V c (ix2 (rowAt t p) a) := by
  show V c main_v1 (((cfg0.win 1).blk t).view.emb (ix2 p a)) = V c main_v1 (ix2 (rowAt t p) a)
  refine congrArg (V c main_v1) (funext fun d => Fin.ext ?_)
  match d with
  | ⟨0, _⟩ => show win0_1.index t (0 : Fin 2) * 4000 + 1 * p.val = t.val * 4000 + p.val; rw [(idx1 t).1]; omega
  | ⟨1, _⟩ => show win0_1.index t (1 : Fin 2) * 64 + 1 * a.val = a.val; rw [(idx1 t).2]; omega

/-- The same for the edge features. -/
theorem blk2_at (c : Dev nD) (t : Fin cfg0.N) (p : Fin 4000) (a : Fin 64) :
    (iblk0 V c 2 t : Vec Ideal S4000x64 .f32) (ix2 p a) = efA V c (ix2 (rowAt t p) a) := by
  show V c main_arg1 (((cfg0.win 2).blk t).view.emb (ix2 p a)) = V c main_arg1 (ix2 (rowAt t p) a)
  refine congrArg (V c main_arg1) (funext fun d => Fin.ext ?_)
  match d with
  | ⟨0, _⟩ => show win0_2.index t (0 : Fin 2) * 4000 + 1 * p.val = t.val * 4000 + p.val; rw [(idx2 t).1]; omega
  | ⟨1, _⟩ => show win0_2.index t (1 : Fin 2) * 64 + 1 * a.val = a.val; rw [(idx2 t).2]; omega

/-- A weight or bias has one block, the whole array, at every point: the forward first-layer weight. -/
theorem blk3_at (c : Dev nD) (t : Fin cfg0.N) (r : Fin 192) (k : Fin 128) :
    (iblk0 V c 3 t : Vec Ideal S192x128 .f32) (ix2 r k) = w1fA V c (ix2 r k) := by
  show V c main_arg2 (((cfg0.win 3).blk t).view.emb (ix2 r k)) = V c main_arg2 (ix2 r k)
  refine congrArg (V c main_arg2) (funext fun d => Fin.ext ?_)
  match d with
  | ⟨0, _⟩ => show win0_3.index t (0 : Fin 2) * 192 + 1 * r.val = r.val; rw [(idx3 t).1]; omega
  | ⟨1, _⟩ => show win0_3.index t (1 : Fin 2) * 128 + 1 * k.val = k.val; rw [(idx3 t).2]; omega

/-- The forward first-layer bias. -/
theorem blk4_at (c : Dev nD) (t : Fin cfg0.N) (r : Fin 1) (k : Fin 128) :
    (iblk0 V c 4 t : Vec Ideal S1x128 .f32) (ix2 r k) = b1fA V c (ix2 r k) := by
  show V c main_v2 (((cfg0.win 4).blk t).view.emb (ix2 r k)) = V c main_v2 (ix2 r k)
  refine congrArg (V c main_v2) (funext fun d => Fin.ext ?_)
  match d with
  | ⟨0, _⟩ => show win0_4.index t (0 : Fin 2) * 1 + 1 * r.val = r.val; rw [(idx4 t).1]; omega
  | ⟨1, _⟩ => show win0_4.index t (1 : Fin 2) * 128 + 1 * k.val = k.val; rw [(idx4 t).2]; omega

/-- The forward second-layer weight. -/
theorem blk5_at (c : Dev nD) (t : Fin cfg0.N) (r : Fin 128) (k : Fin 128) :
    (iblk0 V c 5 t : Vec Ideal S128x128 .f32) (ix2 r k) = w2fA V c (ix2 r k) := by
  show V c main_arg4 (((cfg0.win 5).blk t).view.emb (ix2 r k)) = V c main_arg4 (ix2 r k)
  refine congrArg (V c main_arg4) (funext fun d => Fin.ext ?_)
  match d with
  | ⟨0, _⟩ => show win0_5.index t (0 : Fin 2) * 128 + 1 * r.val = r.val; rw [(idx5 t).1]; omega
  | ⟨1, _⟩ => show win0_5.index t (1 : Fin 2) * 128 + 1 * k.val = k.val; rw [(idx5 t).2]; omega

/-- The forward second-layer bias. -/
theorem blk6_at (c : Dev nD) (t : Fin cfg0.N) (r : Fin 1) (k : Fin 128) :
    (iblk0 V c 6 t : Vec Ideal S1x128 .f32) (ix2 r k) = b2fA V c (ix2 r k) := by
  show V c main_v3 (((cfg0.win 6).blk t).view.emb (ix2 r k)) = V c main_v3 (ix2 r k)
  refine congrArg (V c main_v3) (funext fun d => Fin.ext ?_)
  match d with
  | ⟨0, _⟩ => show win0_6.index t (0 : Fin 2) * 1 + 1 * r.val = r.val; rw [(idx6 t).1]; omega
  | ⟨1, _⟩ => show win0_6.index t (1 : Fin 2) * 128 + 1 * k.val = k.val; rw [(idx6 t).2]; omega

/-- The reverse first-layer weight. -/
theorem blk7_at (c : Dev nD) (t : Fin cfg0.N) (r : Fin 192) (k : Fin 128) :
    (iblk0 V c 7 t : Vec Ideal S192x128 .f32) (ix2 r k) = w1rA V c (ix2 r k) := by
  show V c main_arg6 (((cfg0.win 7).blk t).view.emb (ix2 r k)) = V c main_arg6 (ix2 r k)
  refine congrArg (V c main_arg6) (funext fun d => Fin.ext ?_)
  match d with
  | ⟨0, _⟩ => show win0_7.index t (0 : Fin 2) * 192 + 1 * r.val = r.val; rw [(idx7 t).1]; omega
  | ⟨1, _⟩ => show win0_7.index t (1 : Fin 2) * 128 + 1 * k.val = k.val; rw [(idx7 t).2]; omega

/-- The reverse first-layer bias. -/
theorem blk8_at (c : Dev nD) (t : Fin cfg0.N) (r : Fin 1) (k : Fin 128) :
    (iblk0 V c 8 t : Vec Ideal S1x128 .f32) (ix2 r k) = b1rA V c (ix2 r k) := by
  show V c main_v4 (((cfg0.win 8).blk t).view.emb (ix2 r k)) = V c main_v4 (ix2 r k)
  refine congrArg (V c main_v4) (funext fun d => Fin.ext ?_)
  match d with
  | ⟨0, _⟩ => show win0_8.index t (0 : Fin 2) * 1 + 1 * r.val = r.val; rw [(idx8 t).1]; omega
  | ⟨1, _⟩ => show win0_8.index t (1 : Fin 2) * 128 + 1 * k.val = k.val; rw [(idx8 t).2]; omega

/-- The reverse second-layer weight. -/
theorem blk9_at (c : Dev nD) (t : Fin cfg0.N) (r : Fin 128) (k : Fin 128) :
    (iblk0 V c 9 t : Vec Ideal S128x128 .f32) (ix2 r k) = w2rA V c (ix2 r k) := by
  show V c main_arg8 (((cfg0.win 9).blk t).view.emb (ix2 r k)) = V c main_arg8 (ix2 r k)
  refine congrArg (V c main_arg8) (funext fun d => Fin.ext ?_)
  match d with
  | ⟨0, _⟩ => show win0_9.index t (0 : Fin 2) * 128 + 1 * r.val = r.val; rw [(idx9 t).1]; omega
  | ⟨1, _⟩ => show win0_9.index t (1 : Fin 2) * 128 + 1 * k.val = k.val; rw [(idx9 t).2]; omega

/-- The reverse second-layer bias. -/
theorem blk10_at (c : Dev nD) (t : Fin cfg0.N) (r : Fin 1) (k : Fin 128) :
    (iblk0 V c 10 t : Vec Ideal S1x128 .f32) (ix2 r k) = b2rA V c (ix2 r k) := by
  show V c main_v5 (((cfg0.win 10).blk t).view.emb (ix2 r k)) = V c main_v5 (ix2 r k)
  refine congrArg (V c main_v5) (funext fun d => Fin.ext ?_)
  match d with
  | ⟨0, _⟩ => show win0_10.index t (0 : Fin 2) * 1 + 1 * r.val = r.val; rw [(idx10 t).1]; omega
  | ⟨1, _⟩ => show win0_10.index t (1 : Fin 2) * 128 + 1 * k.val = k.val; rw [(idx10 t).2]; omega

/-- The forward output as one function of the arrays: entry (e, j) is edge e's forward message at feature j. -/
def GF (c : Dev nD) : FVec Ideal S800000x128 .bf16 := fun i =>
  GraphProp.edgeMsg (fun a => nfA V c (ix2 (n0 := 800000) (n1 := 64) (i 0) a)) (fun a => ntA V c (ix2 (n0 := 800000) (n1 := 64) (i 0) a))
    (fun a => efA V c (ix2 (n0 := 800000) (n1 := 64) (i 0) a)) (fun r k => w1fA V c (ix2 r k)) (fun k => b1fA V c (ix2 0 k))
    (fun k j => w2fA V c (ix2 k j)) (fun j => b2fA V c (ix2 0 j)) (i 1)

/-- Entry (p, q) of what point t leaves in the forward output's block is the message of edge 4000 t + p at feature q. -/
theorem blockF_at (c : Dev nD) (t : Fin cfg0.N) (p : Fin 4000) (q : Fin 128) :
    k0_pay1 (F := Ideal) (k0_pay3 (iblk0 V c 0 t)) (k0_pay4 (iblk0 V c 1 t)) (k0_pay5 (iblk0 V c 2 t)) (k0_pay6 (View.ld (iblk0 V c 3 t) r0_1)) (k0_pay7 (View.ld (iblk0 V c 3 t) r0_2)) (k0_pay8 (View.ld (iblk0 V c 3 t) r0_3)) (k0_pay9 (iblk0 V c 4 t)) (k0_pay10 (iblk0 V c 5 t)) (k0_pay11 (iblk0 V c 6 t)) (ix2 p q)
      = GF V c (ix2 (rowAt t p) q) := by
  refine (payF_at (iblk0 V c 0 t) (iblk0 V c 1 t) (iblk0 V c 2 t) (iblk0 V c 3 t) (iblk0 V c 4 t) (iblk0 V c 5 t) (iblk0 V c 6 t) p q).trans ?_
  show _ = GraphProp.edgeMsg (fun a => nfA V c (ix2 (rowAt t p) a)) (fun a => ntA V c (ix2 (rowAt t p) a))
    (fun a => efA V c (ix2 (rowAt t p) a)) (fun r k => w1fA V c (ix2 r k)) (fun k => b1fA V c (ix2 0 k))
    (fun k j => w2fA V c (ix2 k j)) (fun j => b2fA V c (ix2 0 j)) q
  simp only [blk0_at, blk1_at, blk2_at, blk3_at, blk4_at, blk5_at, blk6_at]

/-- Entry (p, q) of the forward output's block at point t is entry (4000 t + p, q) of the array. -/
theorem embF (t : Fin cfg0.N) (p : Fin 4000) (q : Fin 128) :
    ((cfg0.win 11).blk t).view.emb (ix2 p q) = ix2 (rowAt t p) q := by
  refine funext fun d => Fin.ext ?_
  match d with
  | ⟨0, _⟩ => show win0_11.index t (0 : Fin 2) * 4000 + 1 * p.val = t.val * 4000 + p.val; rw [(idx11 t).1]; omega
  | ⟨1, _⟩ => show win0_11.index t (1 : Fin 2) * 128 + 1 * q.val = q.val; rw [(idx11 t).2]; omega

/-- What point t writes back to the forward output is block t of that function. -/
theorem flushedF_eq (c : Dev nD) (t : Fin cfg0.N) :
    (dat0 (F := Ideal) V c).flushed 11 t = ((cfg0.win 11).blk t).view.read (Elt Ideal) (GF V c) := by
  show (cfg0.win 11).cut (grid0.coords t) ((dat0 (F := Ideal) V c).after 11 t) = _
  rw [after0_11]
  unfold out0_11
  rw [View.canon_unit_zero hz]
  simp only [View.ld_unit_zero (S := S4000x64) hz, View.ld_unit_zero (S := S1x128) hz, View.ld_unit_zero (S := S128x128) hz]
  funext y
  obtain ⟨p, q, rfl⟩ : ∃ (p : Fin 4000) (q : Fin 128), y = ix2 p q := ⟨y 0, y 1, eq_ix2 y⟩
  refine (blockF_at V c t p q).trans ?_
  exact (congrArg (GF V c) (embF t p q)).symm

/-- Row e of the forward output lies in the block of point e / 4000: the 200 blocks tile the array. -/
theorem coverF (i : S800000x128.Idx) :
    ∃ t : Fin cfg0.N, (cfg0.win 11).flush t = true ∧ i ∈ ((cfg0.win 11).blk t).view.set := by
  have hi0 : (i 0).val < 800000 := idx2_lt0 i
  have hi1 : (i 1).val < 128 := idx2_lt1 i
  have hN : cfg0.N = 200 := N_0
  have ht : (i 0).val / 4000 < cfg0.N := by rw [hN]; omega
  refine ⟨⟨(i 0).val / 4000, ht⟩, flush0_11 _, ?_⟩
  show i ∈ ((View.whole main_v6_0).slice (win0_11.rect ⟨(i 0).val / 4000, ht⟩)).set
  rw [View.set_slice_whole, Rect.mem_set_unit]
  intro a
  match a with
  | ⟨0, _⟩ =>
    show win0_11.index ⟨(i 0).val / 4000, ht⟩ (0 : Fin 2) * 4000 ≤ (i 0).val ∧ (i 0).val < win0_11.index ⟨(i 0).val / 4000, ht⟩ (0 : Fin 2) * 4000 + 4000
    rw [(idx11 ⟨(i 0).val / 4000, ht⟩).1]
    show (i 0).val / 4000 * 4000 ≤ (i 0).val ∧ (i 0).val < (i 0).val / 4000 * 4000 + 4000
    omega
  | ⟨1, _⟩ =>
    show win0_11.index ⟨(i 0).val / 4000, ht⟩ (1 : Fin 2) * 128 ≤ (i 1).val ∧ (i 1).val < win0_11.index ⟨(i 0).val / 4000, ht⟩ (1 : Fin 2) * 128 + 128
    rw [(idx11 ⟨(i 0).val / 4000, ht⟩).2]
    omega

/-- So the forward output ends holding that function. -/
theorem outF_eq (c : Dev nD) : outF V c = GF V c :=
  (dat0 (F := Ideal) V c).arrAt_eq_of_cover 11 (GF V c) (fun t _ => flushedF_eq V c t) (coverF)

/-- The reverse output as one function of the arrays: entry (e, j) is edge e's reverse message at feature j. -/
def GR (c : Dev nD) : FVec Ideal S800000x128 .bf16 := fun i =>
  GraphProp.edgeMsg (fun a => ntA V c (ix2 (n0 := 800000) (n1 := 64) (i 0) a)) (fun a => nfA V c (ix2 (n0 := 800000) (n1 := 64) (i 0) a))
    (fun a => efA V c (ix2 (n0 := 800000) (n1 := 64) (i 0) a)) (fun r k => w1rA V c (ix2 r k)) (fun k => b1rA V c (ix2 0 k))
    (fun k j => w2rA V c (ix2 k j)) (fun j => b2rA V c (ix2 0 j)) (i 1)

/-- Entry (p, q) of what point t leaves in the reverse output's block is the message of edge 4000 t + p at feature q. -/
theorem blockR_at (c : Dev nD) (t : Fin cfg0.N) (p : Fin 4000) (q : Fin 128) :
    k0_pay2 (F := Ideal) (k0_pay3 (iblk0 V c 0 t)) (k0_pay4 (iblk0 V c 1 t)) (k0_pay5 (iblk0 V c 2 t)) (k0_pay12 (View.ld (iblk0 V c 7 t) r0_1)) (k0_pay13 (View.ld (iblk0 V c 7 t) r0_2)) (k0_pay14 (View.ld (iblk0 V c 7 t) r0_3)) (k0_pay15 (iblk0 V c 8 t)) (k0_pay16 (iblk0 V c 9 t)) (iblk0 V c 10 t) (ix2 p q)
      = GR V c (ix2 (rowAt t p) q) := by
  refine (payR_at (iblk0 V c 0 t) (iblk0 V c 1 t) (iblk0 V c 2 t) (iblk0 V c 7 t) (iblk0 V c 8 t) (iblk0 V c 9 t) (iblk0 V c 10 t) p q).trans ?_
  show _ = GraphProp.edgeMsg (fun a => ntA V c (ix2 (rowAt t p) a)) (fun a => nfA V c (ix2 (rowAt t p) a))
    (fun a => efA V c (ix2 (rowAt t p) a)) (fun r k => w1rA V c (ix2 r k)) (fun k => b1rA V c (ix2 0 k))
    (fun k j => w2rA V c (ix2 k j)) (fun j => b2rA V c (ix2 0 j)) q
  simp only [blk0_at, blk1_at, blk2_at, blk7_at, blk8_at, blk9_at, blk10_at]

/-- Entry (p, q) of the reverse output's block at point t is entry (4000 t + p, q) of the array. -/
theorem embR (t : Fin cfg0.N) (p : Fin 4000) (q : Fin 128) :
    ((cfg0.win 12).blk t).view.emb (ix2 p q) = ix2 (rowAt t p) q := by
  refine funext fun d => Fin.ext ?_
  match d with
  | ⟨0, _⟩ => show win0_12.index t (0 : Fin 2) * 4000 + 1 * p.val = t.val * 4000 + p.val; rw [(idx12 t).1]; omega
  | ⟨1, _⟩ => show win0_12.index t (1 : Fin 2) * 128 + 1 * q.val = q.val; rw [(idx12 t).2]; omega

/-- What point t writes back to the reverse output is block t of that function. -/
theorem flushedR_eq (c : Dev nD) (t : Fin cfg0.N) :
    (dat0 (F := Ideal) V c).flushed 12 t = ((cfg0.win 12).blk t).view.read (Elt Ideal) (GR V c) := by
  show (cfg0.win 12).cut (grid0.coords t) ((dat0 (F := Ideal) V c).after 12 t) = _
  rw [after0_12]
  unfold out0_12
  rw [View.canon_unit_zero hz]
  simp only [View.ld_unit_zero (S := S4000x64) hz, View.ld_unit_zero (S := S1x128) hz, View.ld_unit_zero (S := S128x128) hz]
  funext y
  obtain ⟨p, q, rfl⟩ : ∃ (p : Fin 4000) (q : Fin 128), y = ix2 p q := ⟨y 0, y 1, eq_ix2 y⟩
  refine (blockR_at V c t p q).trans ?_
  exact (congrArg (GR V c) (embR t p q)).symm

/-- Row e of the reverse output lies in the block of point e / 4000: the 200 blocks tile the array. -/
theorem coverR (i : S800000x128.Idx) :
    ∃ t : Fin cfg0.N, (cfg0.win 12).flush t = true ∧ i ∈ ((cfg0.win 12).blk t).view.set := by
  have hi0 : (i 0).val < 800000 := idx2_lt0 i
  have hi1 : (i 1).val < 128 := idx2_lt1 i
  have hN : cfg0.N = 200 := N_0
  have ht : (i 0).val / 4000 < cfg0.N := by rw [hN]; omega
  refine ⟨⟨(i 0).val / 4000, ht⟩, flush0_12 _, ?_⟩
  show i ∈ ((View.whole main_v6_1).slice (win0_12.rect ⟨(i 0).val / 4000, ht⟩)).set
  rw [View.set_slice_whole, Rect.mem_set_unit]
  intro a
  match a with
  | ⟨0, _⟩ =>
    show win0_12.index ⟨(i 0).val / 4000, ht⟩ (0 : Fin 2) * 4000 ≤ (i 0).val ∧ (i 0).val < win0_12.index ⟨(i 0).val / 4000, ht⟩ (0 : Fin 2) * 4000 + 4000
    rw [(idx12 ⟨(i 0).val / 4000, ht⟩).1]
    show (i 0).val / 4000 * 4000 ≤ (i 0).val ∧ (i 0).val < (i 0).val / 4000 * 4000 + 4000
    omega
  | ⟨1, _⟩ =>
    show win0_12.index ⟨(i 0).val / 4000, ht⟩ (1 : Fin 2) * 128 ≤ (i 1).val ∧ (i 1).val < win0_12.index ⟨(i 0).val / 4000, ht⟩ (1 : Fin 2) * 128 + 128
    rw [(idx12 ⟨(i 0).val / 4000, ht⟩).2]
    omega

/-- So the reverse output ends holding that function. -/
theorem outR_eq (c : Dev nD) : outR V c = GR V c :=
  (dat0 (F := Ideal) V c).arrAt_eq_of_cover 12 (GR V c) (fun t _ => flushedR_eq V c t) (coverR)

/-- Entry (e, j) of the forward output is edge e's forward message at feature j. -/
theorem msgF_at (c : Dev nD) (e : Fin 800000) (j : Fin 128) :
    outF V c (ix2 e j)
      = GraphProp.edgeMsg (fun a => nfA V c (ix2 e a)) (fun a => ntA V c (ix2 e a)) (fun a => efA V c (ix2 e a))
          (fun r k => w1fA V c (ix2 r k)) (fun k => b1fA V c (ix2 0 k)) (fun k j => w2fA V c (ix2 k j))
          (fun j => b2fA V c (ix2 0 j)) j := by
  exact congrFun (outF_eq V c) (ix2 e j)

/-- Entry (e, j) of the reverse output is edge e's reverse message at feature j: the two node rows exchanged. -/
theorem msgR_at (c : Dev nD) (e : Fin 800000) (j : Fin 128) :
    outR V c (ix2 e j)
      = GraphProp.edgeMsg (fun a => ntA V c (ix2 e a)) (fun a => nfA V c (ix2 e a)) (fun a => efA V c (ix2 e a))
          (fun r k => w1rA V c (ix2 r k)) (fun k => b1rA V c (ix2 0 k)) (fun k j => w2rA V c (ix2 k j))
          (fun j => b2rA V c (ix2 0 j)) j := by
  exact congrFun (outR_eq V c) (ix2 e j)

end Cert.KernelIdeal.EdgeRegion

end
-- ==== Proof.NodeRegion.lean ====
/-
  The node region's output array, entry by entry. The region cuts the 50000 nodes into 10 blocks of 5000; block t of the
  output is the node update of block t of the collected messages and of the node states, and the blocks tile the array,
  so entry (n, j) is node n's new state at feature j.

  In order: each of the body's three matrix products at an entry is the sum over the contracted coordinate of the
  operands' products; the body's arithmetic at entry (p, q) of a block is the old state plus the two-layer perceptron of
  row p, the first layer's weight entering as its leading 128 rows and its last 64 rows; at grid point t the two row-blocked
  inputs and the output sit at rows 5000 t … 5000 t + 4999 of their arrays and every weight and bias block is the whole
  of its array; so what point t writes back is block t of one array of node updates; and since row n lies in block
  n / 5000 the ten blocks cover the output, which therefore ends holding that array.
-/
import proofs.«426496_j90744069030597_2_alg».proof.Proof.Gen.KernelIdeal.Frame
import proofs.«426496_j90744069030597_2_alg».proof.Proof.Spec
import proofs.«426496_j90744069030597_2_alg».proof.Proof.Laws
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.NodeRegion

open Cert.KernelIdeal Cert.KernelIdeal.Gen Idealize.ShloMosaic Idealize.ShloMosaic.TcCoe Idealize.ShloMosaic.ValueIdx Idealize.SL.Sem

/- the buffer contents when the region is entered -/
variable (V : (c : Dev nD) → (b : Ref sig .tc) → Buf (Elt Ideal) ((c : Thread nD τ).loc b))

/-- The region's six input arrays, by their literal types: collected messages, node states, and the update perceptron's
    weights and (row-shaped) biases. -/
abbrev aggA (c : Dev nD) : FVec Ideal S50000x128 .f32 := V c main_v12
abbrev nsA (c : Dev nD) : FVec Ideal S50000x64 .f32 := V c main_arg0
abbrev wn1A (c : Dev nD) : FVec Ideal S192x128 .f32 := V c main_arg10
abbrev bn1A (c : Dev nD) : FVec Ideal S1x128 .f32 := V c main_v13
abbrev wn2A (c : Dev nD) : FVec Ideal S128x64 .f32 := V c main_arg12
abbrev bn2A (c : Dev nD) : FVec Ideal S1x64 .f32 := V c main_v14
/-- The output array after the region. -/
abbrev outN (c : Dev nD) : FVec Ideal S50000x64 .f32 := (dat1 (F := Ideal) V c).arrAt 6 cfg1.N

/-! ## The three matrix products at an entry

For a product of an [m, K] by a [K, n] operand, the left operand is read at (row of the output, contracted coordinate)
and the right at (contracted coordinate, column of the output); re-indexing the contraction by its one coordinate turns
the product at (p, k) into the sum over a of left (p, a) times right (a, k). Three shapes occur: [5000,128]·[128,128],
[5000,64]·[64,128] and [5000,128]·[128,64]. -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
theorem mmA_apply (l : FVec Ideal S5000x128 .bf16) (r : FVec Ideal S128x128 .bf16) (p : Fin 5000) (k : Fin 128) :
    matmul dot_S5000x128_S128x128_S5000x128_1_0_0_1_n_n none l r (constant (F := Ideal) S5000x128 .f32 0x00000000#32) (ix2 p k)
      = ∑ a : Fin 128, l (ix2 p a) * r (ix2 a k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun a _ => ?_
  have hk := ValueIdx.contrEquiv1_symm_val dot_S5000x128_S128x128_S5000x128_1_0_0_1_n_n 128 rfl rfl a
  have el : dot_S5000x128_S128x128_S5000x128_1_0_0_1_n_n.lhsIdx (ix2 p k) ((ValueIdx.contrEquiv1 dot_S5000x128_S128x128_S5000x128_1_0_0_1_n_n 128 rfl rfl).symm a) = ix2 p a := funext fun b => Fin.ext (by
    match b with
    | ⟨0, _⟩ => exact lhsA_0 _ _
    | ⟨1, _⟩ => exact (lhsA_1 _ _).trans hk)
  have er : dot_S5000x128_S128x128_S5000x128_1_0_0_1_n_n.rhsIdx (ix2 p k) ((ValueIdx.contrEquiv1 dot_S5000x128_S128x128_S5000x128_1_0_0_1_n_n 128 rfl rfl).symm a) = ix2 a k := funext fun b => Fin.ext (by
    match b with
    | ⟨0, _⟩ => exact (rhsA_0 _ _).trans hk
    | ⟨1, _⟩ => exact rhsA_1 _ _)
  rw [el, er]

theorem lhsB_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsB_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsB_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsB_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl
theorem mmB_apply (l : FVec Ideal S5000x64 .bf16) (r : FVec Ideal S64x128 .bf16) (p : Fin 5000) (k : Fin 128) :
    matmul dot_S5000x64_S64x128_S5000x128_1_0_0_1_n_n none l r (constant (F := Ideal) S5000x128 .f32 0x00000000#32) (ix2 p k)
      = ∑ a : Fin 64, l (ix2 p a) * r (ix2 a k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun a _ => ?_
  have hk := ValueIdx.contrEquiv1_symm_val dot_S5000x64_S64x128_S5000x128_1_0_0_1_n_n 64 rfl rfl a
  have el : dot_S5000x64_S64x128_S5000x128_1_0_0_1_n_n.lhsIdx (ix2 p k) ((ValueIdx.contrEquiv1 dot_S5000x64_S64x128_S5000x128_1_0_0_1_n_n 64 rfl rfl).symm a) = ix2 p a := funext fun b => Fin.ext (by
    match b with
    | ⟨0, _⟩ => exact lhsB_0 _ _
    | ⟨1, _⟩ => exact (lhsB_1 _ _).trans hk)
  have er : dot_S5000x64_S64x128_S5000x128_1_0_0_1_n_n.rhsIdx (ix2 p k) ((ValueIdx.contrEquiv1 dot_S5000x64_S64x128_S5000x128_1_0_0_1_n_n 64 rfl rfl).symm a) = ix2 a k := funext fun b => Fin.ext (by
    match b with
    | ⟨0, _⟩ => exact (rhsB_0 _ _).trans hk
    | ⟨1, _⟩ => exact rhsB_1 _ _)
  rw [el, er]

theorem lhsC_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsC_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsC_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsC_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
theorem mmC_apply (l : FVec Ideal S5000x128 .bf16) (r : FVec Ideal S128x64 .bf16) (p : Fin 5000) (k : Fin 64) :
    matmul dot_S5000x128_S128x64_S5000x64_1_0_0_1_n_n none l r (constant (F := Ideal) S5000x64 .f32 0x00000000#32) (ix2 p k)
      = ∑ a : Fin 128, l (ix2 p a) * r (ix2 a k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun a _ => ?_
  have hk := ValueIdx.contrEquiv1_symm_val dot_S5000x128_S128x64_S5000x64_1_0_0_1_n_n 128 rfl rfl a
  have el : dot_S5000x128_S128x64_S5000x64_1_0_0_1_n_n.lhsIdx (ix2 p k) ((ValueIdx.contrEquiv1 dot_S5000x128_S128x64_S5000x64_1_0_0_1_n_n 128 rfl rfl).symm a) = ix2 p a := funext fun b => Fin.ext (by
    match b with
    | ⟨0, _⟩ => exact lhsC_0 _ _
    | ⟨1, _⟩ => exact (lhsC_1 _ _).trans hk)
  have er : dot_S5000x128_S128x64_S5000x64_1_0_0_1_n_n.rhsIdx (ix2 p k) ((ValueIdx.contrEquiv1 dot_S5000x128_S128x64_S5000x64_1_0_0_1_n_n 128 rfl rfl).symm a) = ix2 a k := funext fun b => Fin.ext (by
    match b with
    | ⟨0, _⟩ => exact (rhsC_0 _ _).trans hk
    | ⟨1, _⟩ => exact rhsC_1 _ _)
  rw [el, er]

/-! ## The body's arithmetic at an entry

Narrowing to 16 bits and casting to the same shape change no value over the extended reals; a one-row bias laid over all
rows reads its entry of that row; the zero word is the number zero. -/

/-- The body's arithmetic at entry (p, q) of the block: the old state plus the two-layer perceptron of row p. -/
theorem pay_at (v0 : Vec Ideal S5000x128 .f32) (v3 : Vec Ideal S5000x64 .f32) (v5 : Vec Ideal S128x128 .f32)
    (v7 : Vec Ideal S64x128 .f32) (v9 : Vec Ideal S1x128 .f32) (v11 : Vec Ideal S128x64 .f32) (v13 : Vec Ideal S1x64 .f32)
    (v26 : Vec Ideal S5000x64 .f32) (p : Fin 5000) (q : Fin 64) :
    k1_pay1 (F := Ideal) v0 v3 v5 v7 v9 v11 v13 v26 (ix2 p q)
      = v26 (ix2 p q) + ((∑ k : Fin 128, max (((∑ a : Fin 128, v0 (ix2 p a) * v5 (ix2 a k))
          + ∑ a : Fin 64, v3 (ix2 p a) * v7 (ix2 a k)) + v9 (ix2 0 k)) 0 * v11 (ix2 k q)) + v13 (ix2 0 q)) := by
  unfold k1_pay1
  simp only [shapeCast_self]
  rw [addf_apply, addf_apply, mmC_apply, broadcastTo_1b_ab_apply]
  refine congrArg (v26 (ix2 p q) + ·) (congrArg (· + v13 (ix2 0 q)) (Finset.sum_congr rfl fun k _ => ?_))
  rw [truncf_apply, truncf_apply, maximumf_apply, addf_apply, addf_apply, mmA_apply, mmB_apply, broadcastTo_1b_ab_apply,
    broadcast_apply, Ideal.ofBits_def, Ideal.ofBits_zero_f32]
  rfl

/-! ## What the body leaves in the output block

The body loads each whole input block, except the first layer's weight, of which it loads rows 0 … 127 and rows
128 … 191 separately, and stores one whole block. -/

/-- Both offsets zero, as a constant function. -/
theorem hz : (![0, 0] : Fin 2 → Nat) = fun _ => 0 := funext fun a => by fin_cases a <;> rfl

/-- The first load of the 192-row weight reads its leading 128 rows … -/
theorem ld_lo (x2 : Vec Ideal S192x128 .f32) (a : Fin 128) (k : Fin 128) :
    View.ld x2 r1_2 (ix2 a k) = x2 (ix2 (GraphProp.lo128 a) k) := by
  refine congrArg x2 (funext fun b => Fin.ext ?_)
  match b with
  | ⟨0, _⟩ => show 0 + 1 * a.val = a.val; omega
  | ⟨1, _⟩ => show 0 + 1 * k.val = k.val; omega
/-- … and the second its last 64 rows. -/
theorem ld_hi (x2 : Vec Ideal S192x128 .f32) (a : Fin 64) (k : Fin 128) :
    View.ld x2 r1_3 (ix2 a k) = x2 (ix2 (GraphProp.hi a) k) := by
  refine congrArg x2 (funext fun b => Fin.ext ?_)
  match b with
  | ⟨0, _⟩ => show 128 + 1 * a.val = 128 + a.val; omega
  | ⟨1, _⟩ => show 0 + 1 * k.val = k.val; omega

/-- Entry (p, q) of what the body leaves in the output block, from the six input blocks: the node update of row p of the
    two row blocks, with the whole weights and biases. -/
theorem block_at (x0 : Vec Ideal S5000x128 .f32) (x1 : Vec Ideal S5000x64 .f32) (x2 : Vec Ideal S192x128 .f32)
    (x3 : Vec Ideal S1x128 .f32) (x4 : Vec Ideal S128x64 .f32) (x5 : Vec Ideal S1x64 .f32) (p : Fin 5000) (q : Fin 64) :
    out1_6 (F := Ideal) x0 x1 x2 x3 x4 x5 (ix2 p q)
      = GraphProp.nodeOut (fun a => x0 (ix2 p a)) (fun a => x1 (ix2 p a)) (fun r k => x2 (ix2 r k)) (fun k => x3 (ix2 0 k))
          (fun k j => x4 (ix2 k j)) (fun j => x5 (ix2 0 j)) q := by
  unfold out1_6
  rw [View.canon_unit_zero hz]
  simp only [View.ld_unit_zero (S := S5000x128) hz, View.ld_unit_zero (S := S5000x64) hz, View.ld_unit_zero (S := S1x128) hz,
    View.ld_unit_zero (S := S128x64) hz, View.ld_unit_zero (S := S1x64) hz]
  rw [pay_at]
  unfold GraphProp.nodeOut
  refine congrArg (x1 (ix2 p q) + ·) (congrArg (· + x5 (ix2 0 q)) (Finset.sum_congr rfl fun k _ => ?_))
  refine congrArg (fun z => max (z + x3 (ix2 0 k)) 0 * x4 (ix2 k q)) ?_
  refine congrArg₂ (· + ·) (Finset.sum_congr rfl fun a _ => ?_) (Finset.sum_congr rfl fun a _ => ?_)
  · exact congrArg (x0 (ix2 p a) * ·) (ld_lo x2 a k)
  · exact congrArg (x1 (ix2 p a) * ·) (ld_hi x2 a k)

/-! ## The array of node updates, and the input blocks as rows of the arrays -/

/-- Node n's new state at feature j, from the six arrays. -/
abbrev nodeRow (c : Dev nD) (n : Fin 50000) (j : Fin 64) : EReal :=
  GraphProp.nodeOut (fun a => aggA V c (ix2 n a)) (fun a => nsA V c (ix2 n a)) (fun r k => wn1A V c (ix2 r k))
    (fun k => bn1A V c (ix2 0 k)) (fun k j => wn2A V c (ix2 k j)) (fun j => bn2A V c (ix2 0 j)) j

/-- The array the region should leave: at index i, the new state of node i₀ at feature i₁. -/
def G (c : Dev nD) : FVec Ideal S50000x64 .f32 := fun i =>
  nodeRow V c ⟨(i 0).val, (i 0).isLt⟩ ⟨(i 1).val, (i 1).isLt⟩

/-- That array at an index whose coordinates are n and j. -/
theorem G_of_coords (c : Dev nD) (i : S50000x64.Idx) (n : Fin 50000) (j : Fin 64) (h0 : (i 0).val = n.val) (h1 : (i 1).val = j.val) :
    G V c i = nodeRow V c n j := by
  obtain rfl : n = ⟨(i 0).val, (i 0).isLt⟩ := Fin.ext h0.symm
  obtain rfl : j = ⟨(i 1).val, (i 1).isLt⟩ := Fin.ext h1.symm
  rfl

/-- The node update depends on its six arguments only through their values. -/
theorem nodeOut_congr {g g' : Fin 128 → EReal} {s s' : Fin 64 → EReal} {W W' : Fin 192 → Fin 128 → EReal} {b b' : Fin 128 → EReal}
    {U U' : Fin 128 → Fin 64 → EReal} {d d' : Fin 64 → EReal} (j : Fin 64) (hg : ∀ a, g a = g' a) (hs : ∀ a, s a = s' a)
    (hW : ∀ r k, W r k = W' r k) (hb : ∀ k, b k = b' k) (hU : ∀ k j, U k j = U' k j) (hd : ∀ j, d j = d' j) :
    GraphProp.nodeOut g s W b U d j = GraphProp.nodeOut g' s' W' b' U' d' j := by
  obtain rfl : g = g' := funext hg
  obtain rfl : s = s' := funext hs
  obtain rfl : W = W' := funext fun r => funext (hW r)
  obtain rfl : b = b' := funext hb
  obtain rfl : U = U' := funext fun k => funext (hU k)
  obtain rfl : d = d' := funext hd
  rfl

/-- The six input blocks at point t, by their literal types. -/
abbrev blk0 (c : Dev nD) (t : Fin cfg1.N) : Vec Ideal S5000x128 .f32 := iblk1 V c 0 t
abbrev blk1 (c : Dev nD) (t : Fin cfg1.N) : Vec Ideal S5000x64 .f32 := iblk1 V c 1 t
abbrev blk2 (c : Dev nD) (t : Fin cfg1.N) : Vec Ideal S192x128 .f32 := iblk1 V c 2 t
abbrev blk3 (c : Dev nD) (t : Fin cfg1.N) : Vec Ideal S1x128 .f32 := iblk1 V c 3 t
abbrev blk4 (c : Dev nD) (t : Fin cfg1.N) : Vec Ideal S128x64 .f32 := iblk1 V c 4 t
abbrev blk5 (c : Dev nD) (t : Fin cfg1.N) : Vec Ideal S1x64 .f32 := iblk1 V c 5 t

/-- The windows' block indices at point t, decided over the ten points: the two row-blocked inputs and the output are at
    block (t, 0), the weights and biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 5000 t + p of the array. -/
def rowOfBlk (t : Fin cfg1.N) (p : Fin 5000) : Fin 50000 :=
  ⟨t.val * 5000 + p.val, by have h := t.isLt; have hN : cfg1.N = 10 := N_1; have hp := p.isLt; omega⟩

/-- Block t of the collected messages is rows 5000 t … 5000 t + 4999 of their array, -/
theorem blk0_at (c : Dev nD) (t : Fin cfg1.N) (p : Fin 5000) (a : Fin 128) :
    blk0 V c t (ix2 p a) = aggA V c (ix2 (rowOfBlk t p) a) := by
  obtain ⟨e0, e1, -⟩ := idx_facts t
  show V c main_v12 (((cfg1.win 0).blk t).view.emb (ix2 p a)) = V c main_v12 (ix2 (rowOfBlk t p) a)
  refine congrArg (V c main_v12) (funext fun b => Fin.ext ?_)
  match b with
  | ⟨0, _⟩ => show win1_0.index t (0 : Fin 2) * 5000 + 1 * p.val = t.val * 5000 + p.val; rw [e0]; omega
  | ⟨1, _⟩ => show win1_0.index t (1 : Fin 2) * 128 + 1 * a.val = a.val; rw [e1]; omega
/-- block t of the node states rows 5000 t … 5000 t + 4999 of theirs, -/
theorem blk1_at (c : Dev nD) (t : Fin cfg1.N) (p : Fin 5000) (a : Fin 64) :
    blk1 V c t (ix2 p a) = nsA V c (ix2 (rowOfBlk t p) a) := by
  obtain ⟨-, -, e0, e1, -⟩ := idx_facts t
  show V c main_arg0 (((cfg1.win 1).blk t).view.emb (ix2 p a)) = V c main_arg0 (ix2 (rowOfBlk t p) a)
  refine congrArg (V c main_arg0) (funext fun b => Fin.ext ?_)
  match b with
  | ⟨0, _⟩ => show win1_1.index t (0 : Fin 2) * 5000 + 1 * p.val = t.val * 5000 + p.val; rw [e0]; omega
  | ⟨1, _⟩ => show win1_1.index t (1 : Fin 2) * 64 + 1 * a.val = a.val; rw [e1]; omega
/-- and the block of each weight and each bias is the whole of it, at every point. -/
theorem blk2_at (c : Dev nD) (t : Fin cfg1.N) (r : Fin 192) (k : Fin 128) :
    blk2 V c t (ix2 r k) = wn1A V c (ix2 r k) := by
  obtain ⟨-, -, -, -, e0, e1, -⟩ := idx_facts t
  show V c main_arg10 (((cfg1.win 2).blk t).view.emb (ix2 r k)) = V c main_arg10 (ix2 r k)
  refine congrArg (V c main_arg10) (funext fun b => Fin.ext ?_)
  match b with
  | ⟨0, _⟩ => show win1_2.index t (0 : Fin 2) * 192 + 1 * r.val = r.val; rw [e0]; omega
  | ⟨1, _⟩ => show win1_2.index t (1 : Fin 2) * 128 + 1 * k.val = k.val; rw [e1]; omega
theorem blk3_at (c : Dev nD) (t : Fin cfg1.N) (k : Fin 128) :
    blk3 V c t (ix2 0 k) = bn1A V c (ix2 0 k) := by
  obtain ⟨-, -, -, -, -, -, e0, e1, -⟩ := idx_facts t
  show V c main_v13 (((cfg1.win 3).blk t).view.emb (ix2 0 k)) = V c main_v13 (ix2 0 k)
  refine congrArg (V c main_v13) (funext fun b => Fin.ext ?_)
  match b with
  | ⟨0, _⟩ => show win1_3.index t (0 : Fin 2) * 1 + 1 * 0 = 0; rw [e0]
  | ⟨1, _⟩ => show win1_3.index t (1 : Fin 2) * 128 + 1 * k.val = k.val; rw [e1]; omega
theorem blk4_at (c : Dev nD) (t : Fin cfg1.N) (k : Fin 128) (j : Fin 64) :
    blk4 V c t (ix2 k j) = wn2A V c (ix2 k j) := by
  obtain ⟨-, -, -, -, -, -, -, -, e0, e1, -⟩ := idx_facts t
  show V c main_arg12 (((cfg1.win 4).blk t).view.emb (ix2 k j)) = V c main_arg12 (ix2 k j)
  refine congrArg (V c main_arg12) (funext fun b => Fin.ext ?_)
  match b with
  | ⟨0, _⟩ => show win1_4.index t (0 : Fin 2) * 128 + 1 * k.val = k.val; rw [e0]; omega
  | ⟨1, _⟩ => show win1_4.index t (1 : Fin 2) * 64 + 1 * j.val = j.val; rw [e1]; omega
theorem blk5_at (c : Dev nD) (t : Fin cfg1.N) (j : Fin 64) :
    blk5 V c t (ix2 0 j) = bn2A V c (ix2 0 j) := by
  obtain ⟨-, -, -, -, -, -, -, -, -, -, e0, e1, -⟩ := idx_facts t
  show V c main_v14 (((cfg1.win 5).blk t).view.emb (ix2 0 j)) = V c main_v14 (ix2 0 j)
  refine congrArg (V c main_v14) (funext fun b => Fin.ext ?_)
  match b with
  | ⟨0, _⟩ => show win1_5.index t (0 : Fin 2) * 1 + 1 * 0 = 0; rw [e0]
  | ⟨1, _⟩ => show win1_5.index t (1 : Fin 2) * 64 + 1 * j.val = j.val; rw [e1]; omega

/-! ## From the blocks to the array -/

/-- What point t writes back is block t of that array: the body's block at (p, q) is the node update of row p of the two
    row blocks, which are rows 5000 t + p of the two arrays, and the output's block puts it at row 5000 t + p. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  obtain ⟨-, -, -, -, -, -, -, -, -, -, -, -, e0, e1⟩ := idx_facts t
  funext y
  obtain ⟨p, q, rfl⟩ : ∃ (p : Fin 5000) (q : Fin 64), y = ix2 p q := ⟨y 0, y 1, eq_ix2 y⟩
  show out1_6 (F := Ideal) (blk0 V c t) (blk1 V c t) (blk2 V c t) (blk3 V c t) (blk4 V c t) (blk5 V c t) (ix2 p q)
    = G V c (((cfg1.win 6).blk t).view.emb (ix2 p q))
  refine (block_at (blk0 V c t) (blk1 V c t) (blk2 V c t) (blk3 V c t) (blk4 V c t) (blk5 V c t) p q).trans ?_
  refine Eq.trans ?_ (G_of_coords V c (((cfg1.win 6).blk t).view.emb (ix2 p q)) (rowOfBlk t p) q ?_ ?_).symm
  · exact nodeOut_congr q (blk0_at V c t p) (blk1_at V c t p) (blk2_at V c t) (blk3_at V c t) (blk4_at V c t) (blk5_at V c t)
  · show win1_6.index t (0 : Fin 2) * 5000 + 1 * p.val = t.val * 5000 + p.val; rw [e0]; omega
  · show win1_6.index t (1 : Fin 2) * 64 + 1 * q.val = q.val; rw [e1]; omega

/-- An index of the output array is in point t's block iff each coordinate is in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v15).slice (win1_6.rect t)).set ↔ _
  rw [View.set_slice_whole, Rect.mem_set_unit]
  exact Iff.rfl

/-- The blocks tile the array: row n lies in block n / 5000. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  refine ⟨⟨(i 0).val / 5000, by omega⟩, flush1_6 _, ?_⟩
  obtain ⟨-, -, -, -, -, -, -, -, -, -, -, -, e0, e1⟩ := idx_facts ⟨(i 0).val / 5000, by omega⟩
  rw [mem_blk]
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, _⟩ (1 : Fin 2) * 64 ≤ (i 1).val ∧ (i 1).val < win1_6.index ⟨(i 0).val / 5000, _⟩ (1 : Fin 2) * 64 + 64
    rw [e1]; omega

/-- So the region leaves that array. -/
theorem out_eq (c : Dev nD) : outN V c = G V c :=
  (dat1 (F := Ideal) V c).arrAt_eq_of_cover 6 (G V c) (fun t _ => flushed_eq V c t) cover

/-- Entry (n, j) of the output is node n's new state at feature j. -/
theorem out_at (c : Dev nD) (n : Fin 50000) (j : Fin 64) :
    outN V c (ix2 n j)
      = GraphProp.nodeOut (fun a => aggA V c (ix2 n a)) (fun a => nsA V c (ix2 n a)) (fun r k => wn1A V c (ix2 r k))
          (fun k => bn1A V c (ix2 0 k)) (fun k j => wn2A V c (ix2 k j)) (fun j => bn2A V c (ix2 0 j)) j :=
  (congrFun (out_eq V c) (ix2 n j)).trans (G_of_coords V c (ix2 n j) n j rfl rfl)

end Cert.KernelIdeal.NodeRegion

end
-- ==== Proof.LibScatterRows.lean ====
/-
  An accumulating scatter into a table, read at one entry, as a sum over the rows of the updates.

  At the ideal instance the scatter's entry `i` is the operand's entry plus the sum of the updates that land on `i`.
  When the updates are laid out one row per scatter index — `[N, D]` updates into a `[C, D]` table, row `r` landing on
  class row `c` exactly when a condition `hit r` holds, feature column kept — the updates landing on `(c, f)` are the
  entries `(r, f)` of the rows with `hit r`: the entry is the operand's plus the sum over ALL rows `r` of the update at
  `(r, f)` where `hit r` and zero elsewhere. Stated for any sizes; which rows hit is a hypothesis.
-/
import Idealize.ShloMosaic.PureOps.Ideal
import Idealize.ShloMosaic.PureOps.Contract
import Idealize.ShloMosaic.Lib.ValueIdx

namespace Cert.ClassStats.Scatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- Rows of `[N, D]` updates scattered into a `[C, D]` table: entry `(c, f)`. -/
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

/-- A vector of `N` updates scattered into a vector of `C` entries: entry `c`. -/
theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.LibScatterHit.lean ====
/-
  An accumulating scatter of rows, with the landing condition spelt out. `[N, D]` updates are added into a `[C, D]` table,
  row r into the table row its scatter index names (the index read as a signed integer, feature column kept, a row whose
  index is outside the table dropped). So update entry (r, b) lands on table entry (c, f) exactly when row r's index is c
  and b = f, and at the ideal instance table entry (c, f) ends as the operand's entry plus the sum of the update entries
  (r, f) over the rows r whose index is c. Stated for any sizes; the four hypotheses are the printed dimension numbers.
-/
import Idealize.ShloMosaic.PureOps.Ideal
import Idealize.ShloMosaic.PureOps.Contract
import Idealize.ShloMosaic.Lib.ValueIdx
import proofs.«426496_j90744069030597_2_alg».proof.Proof.LibScatterRows

namespace Idealize.ShloMosaic.RowScatter

open Idealize.ShloMosaic Idealize.ShloMosaic.ValueIdx

/-- On an axis numbered 0 a rank-2 index reads its first coordinate. -/
theorem coord_zero {n0 n1 : ℕ} (p : Fin n0) (q : Fin n1) (i : Fin 2) (hi : i.val = 0) : (ix2 p q i).val = p.val := by
  match i, hi with
  | ⟨0, _⟩, _ => rfl

/-- On an axis numbered 1 a rank-2 index reads its second coordinate. -/
theorem coord_one {n0 n1 : ℕ} (p : Fin n0) (q : Fin n1) (i : Fin 2) (hi : i.val = 1) : (ix2 p q i).val = q.val := by
  match i, hi with
  | ⟨1, _⟩, _ => rfl

/-- An axis of a rank-2 shape that is not axis 1 is axis 0. -/
theorem axis_zero_of_ne_one (a : Fin 2) (h : a ≠ 1) : a.val = 0 := by
  match a, h with
  | ⟨0, _⟩, _ => rfl
  | ⟨1, _⟩, h => exact absurd rfl h

section
variable {N C D w : ℕ} (d : ScatterDims ⟨2, ![C, D]⟩ ⟨2, ![N, 1]⟩ ⟨2, ![N, D]⟩)

/-- The operand axes that receive a window axis are the ones not inserted. -/
theorem mem_sKept (a : Fin 2) : a ∈ d.sKept ↔ a ∉ d.insertedWindowDims := by
  simp [ScatterDims.sKept, Shape.kept, List.mem_filter, List.mem_finRange]

/-- The updates' scatter axes are the ones that are not window axes. -/
theorem mem_uScatter (a : Fin 2) : a ∈ d.uScatter ↔ a ∉ d.updateWindowDims := by
  simp [ScatterDims.uScatter, Shape.kept, List.mem_filter, List.mem_finRange]

/-- On table axis 0 the window of update entry (r, b) starts at row r's scatter index, read signed. -/
theorem start_axis0 (huw : d.updateWindowDims = [1]) (hsd : d.scatterDimsToOperandDims = [0]) (hiv : d.indexVectorDim = 1)
    (idx : IVec ⟨2, ![N, 1]⟩ w) (r : Fin N) (b : Fin D) :
    d.start (ix2 r b) idx (0 : Fin 2) = (idx (ix2 r (0 : Fin 1))).toInt := by
  have hm : (0 : Fin 2) ∈ d.scatterDimsToOperandDims := by rw [hsd]; exact List.mem_singleton.mpr rfl
  -- every scatter axis of the updates is axis 0
  have hscat : ∀ a ∈ d.uScatter, a.val = 0 := fun a ha =>
    axis_zero_of_ne_one a (fun h1 => (mem_uScatter d a).mp ha (by rw [huw]; exact List.mem_singleton.mpr h1))
  unfold ScatterDims.start
  rw [dif_pos hm]
  congr 2
  funext e
  apply Fin.ext
  match e with
  | ⟨0, _⟩ =>
    unfold ScatterDims.siIdx
    rw [dif_neg (by rw [hiv]; exact Nat.zero_ne_one)]
    unfold ScatterDims.siCoord
    simp only [Fin.val_cast]
    exact coord_zero r b _ (hscat _ (List.getElem_mem _))
  | ⟨1, _⟩ =>
    unfold ScatterDims.siIdx
    rw [dif_pos (by rw [hiv])]
    show List.idxOf (0 : Fin 2) d.scatterDimsToOperandDims = 0
    rw [hsd]; simp

/-- Table axis 1 is named by no scatter index: the window starts at 0 there. -/
theorem start_axis1 (hsd : d.scatterDimsToOperandDims = [0]) (idx : IVec ⟨2, ![N, 1]⟩ w) (r : Fin N) (b : Fin D) :
    d.start (ix2 r b) idx (1 : Fin 2) = 0 := by
  have hm : (1 : Fin 2) ∉ d.scatterDimsToOperandDims := by rw [hsd]; simp
  unfold ScatterDims.start
  rw [dif_neg hm]

/-- Table axis 0 is an inserted window axis: the window coordinate there is 0. -/
theorem window_axis0 (hiw : d.insertedWindowDims = [0]) (r : Fin N) (b : Fin D) :
    d.window (ix2 r b) (0 : Fin 2) = 0 := by
  have hk : (0 : Fin 2) ∉ d.sKept := by rw [mem_sKept, hiw]; simp
  unfold ScatterDims.window
  rw [dif_neg hk]

/-- Table axis 1 receives the updates' one window axis, axis 1: the window coordinate there is the feature column b. -/
theorem window_axis1 (huw : d.updateWindowDims = [1]) (hiw : d.insertedWindowDims = [0]) (r : Fin N) (b : Fin D) :
    d.window (ix2 r b) (1 : Fin 2) = b.val := by
  have hk : (1 : Fin 2) ∈ d.sKept := by rw [mem_sKept, hiw]; simp
  have hwin : ∀ a ∈ d.updateWindowDims, a.val = 1 := by
    intro a ha; rw [huw] at ha; rw [List.mem_singleton.mp ha]; rfl
  unfold ScatterDims.window
  rw [dif_pos hk]
  exact coord_one r b _ (hwin _ (List.getElem_mem _))

end

/-- Update entry (r, b) lands on table entry (c, f) exactly when row r's index, read signed, is c and b = f. -/
theorem resultIdx_rows {N C D w : ℕ} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hiv : d.indexVectorDim = 1) (idx : IVec ⟨2, ![N, 1]⟩ w) (r : Fin N) (b : Fin D) (c : Fin C) (f : Fin D) :
    d.resultIdx? (ix2 r b) idx = some (ix2 c f) ↔ (idx (ix2 r (0 : Fin 1))).toInt = (c.val : ℤ) ∧ b = f := by
  -- start and window coordinate of update entry (r, b) on the table's two axes
  have hs0 := start_axis0 d huw hsd hiv idx r b
  have hs1 := start_axis1 d hsd idx r b
  have hw0 := window_axis0 d hiw r b
  have hw1 := window_axis1 d huw hiw r b
  generalize (idx (ix2 r (0 : Fin 1))).toInt = t at hs0 ⊢
  have hc := c.isLt
  have hb := b.isLt
  unfold ScatterDims.resultIdx?
  split
  · -- the window is inside the table: the landing entry is (t, b), with 0 ≤ t < C
    next h =>
    have h0 : 0 ≤ t + ((0 : ℕ) : ℤ) ∧ t + ((0 : ℕ) : ℤ) < (C : ℤ) := by
      have := h (0 : Fin 2); rw [hs0, hw0] at this; exact this
    rw [Option.some.injEq]
    constructor
    · intro he
      have e0 : (d.start (ix2 r b) idx (0 : Fin 2) + (d.window (ix2 r b) (0 : Fin 2) : ℕ)).toNat = c.val :=
        congrArg Fin.val (congrFun he (0 : Fin 2))
      have e1 : (d.start (ix2 r b) idx (1 : Fin 2) + (d.window (ix2 r b) (1 : Fin 2) : ℕ)).toNat = f.val :=
        congrArg Fin.val (congrFun he (1 : Fin 2))
      rw [hs0, hw0] at e0
      rw [hs1, hw1] at e1
      exact ⟨by omega, Fin.ext (by omega)⟩
    · rintro ⟨ht, hbf⟩
      have hbf' : b.val = f.val := congrArg Fin.val hbf
      funext a
      apply Fin.ext
      match a with
      | ⟨0, _⟩ =>
        show (d.start (ix2 r b) idx (0 : Fin 2) + (d.window (ix2 r b) (0 : Fin 2) : ℕ)).toNat = c.val
        rw [hs0, hw0]; omega
      | ⟨1, _⟩ =>
        show (d.start (ix2 r b) idx (1 : Fin 2) + (d.window (ix2 r b) (1 : Fin 2) : ℕ)).toNat = f.val
        rw [hs1, hw1]; omega
  · -- the window leaves the table: the update is dropped, and the index cannot be a row of the table
    next h =>
    constructor
    · intro he; exact absurd he (by simp)
    · rintro ⟨ht, -⟩
      exfalso
      apply h
      intro a
      match a with
      | ⟨0, _⟩ =>
        show 0 ≤ d.start (ix2 r b) idx (0 : Fin 2) + (d.window (ix2 r b) (0 : Fin 2) : ℕ)
          ∧ d.start (ix2 r b) idx (0 : Fin 2) + (d.window (ix2 r b) (0 : Fin 2) : ℕ) < (C : ℤ)
        rw [hs0, hw0]; omega
      | ⟨1, _⟩ =>
        show 0 ≤ d.start (ix2 r b) idx (1 : Fin 2) + (d.window (ix2 r b) (1 : Fin 2) : ℕ)
          ∧ d.start (ix2 r b) idx (1 : Fin 2) + (d.window (ix2 r b) (1 : Fin 2) : ℕ) < (D : ℤ)
        rw [hs1, hw1]; omega

/-- Table entry (c, f) after the scatter: the operand's entry plus the update entries (r, f) of the rows whose index is c. -/
theorem scatterAdd_rows_apply {N C D w : ℕ} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hiv : d.indexVectorDim = 1) (x : (⟨2, ![C, D]⟩ : Shape).Idx → EReal) (idx : IVec ⟨2, ![N, 1]⟩ w)
    (upd : (⟨2, ![N, D]⟩ : Shape).Idx → EReal) (c : Fin C) (f : Fin D) :
    Host.scatterAdd (F := Ideal) (φ := .f32) d x idx upd (ix2 c f)
      = x (ix2 c f) + ∑ r : Fin N, if (idx (ix2 r (0 : Fin 1))).toInt = (c.val : ℤ) then upd (ix2 r f) else 0 :=
  Cert.ClassStats.Scatter.scatter2_apply d x idx upd c f (fun r => (idx (ix2 r (0 : Fin 1))).toInt = (c.val : ℤ))
    (fun r b => resultIdx_rows d huw hiw hsd hiv idx r b c f)

end Idealize.ShloMosaic.RowScatter
-- ==== Proof.HostIn.lean ====
/-
  What the edge region finds when it is entered. Before it the program gathers the "from" rows and the "to" rows of the
  node table and reshapes four bias vectors into one-row matrices. A gathered row is filled with a not-a-number pattern
  when its (wrapped) node number falls outside the table; with every node number in 0 … 49999 nothing is filled, and row e
  of each gathered array is the table's row for edge e. Every other array the region reads is an argument as launched.
-/
import proofs.«426496_j90744069030597_2_alg».proof.Proof.Gen.KernelIdeal.Frame
import proofs.«426496_j90744069030597_2_alg».proof.Proof.Spec
import proofs.«426496_j90744069030597_2_alg».proof.Proof.Laws
import proofs.«426496_j90744069030597_2_alg».proof.Proof.KArgs
import proofs.«426496_j90744069030597_2_alg».proof.Proof.LibRowGather
import proofs.«426496_j90744069030597_2_alg».proof.Proof.LibScatterRows
import proofs.«426496_j90744069030597_2_alg».proof.Proof.LibScatterHit
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Run
import Idealize.ShloMosaic.Lib.StableHlo.Predicate

set_option maxRecDepth 16384

noncomputable section

namespace Cert.KernelIdeal.HostIn

open Cert.KernelIdeal Cert.KernelIdeal.Gen Cert.KernelIdeal.Args Idealize.ShloMosaic Idealize.ShloMosaic.TcCoe Idealize.ShloMosaic.ValueIdx Idealize.SL.Sem

variable (m : (ℓ : Loc nD τ sig) → Buf (Elt Ideal) ℓ) (ρ : Dev nD → PrngReg)

/-! ## Contents at a buffer's own type -/

/-- Contents moved to a buffer's own type and back are unchanged. -/
theorem ofBuf_toBuf {T : BufTy} {Val : EltTy → Type} (x : StableHlo.TRef sig T) (v : T.Contents Val) :
    x.ofBuf (x.toBuf v) = v := by
  obtain ⟨r, rfl, _, _⟩ := x
  rfl

/-- The node table, and the two arrays of node numbers, read at their literal types are the buffers' contents. -/
theorem read_arg0 (V : Valuation τ sig (Elt Ideal)) :
    (StableHlo.TRef.of main_arg0 : StableHlo.TRef sig ⟨S50000x64, .f32⟩).ofBuf (V (Proc.devRef .tc main_arg0))
      = (V (Proc.devRef .tc main_arg0) : FVec Ideal S50000x64 .f32) := rfl
theorem read_arg14 (V : Valuation τ sig (Elt Ideal)) :
    (StableHlo.TRef.of main_arg14 : StableHlo.TRef sig ⟨S800000, .i32⟩).ofBuf (V (Proc.devRef .tc main_arg14))
      = (V (Proc.devRef .tc main_arg14) : IVec S800000 32) := rfl
theorem read_arg15 (V : Valuation τ sig (Elt Ideal)) :
    (StableHlo.TRef.of main_arg15 : StableHlo.TRef sig ⟨S800000, .i32⟩).ofBuf (V (Proc.devRef .tc main_arg15))
      = (V (Proc.devRef .tc main_arg15) : IVec S800000 32) := rfl
/-- … and a gathered array written at its buffer's type is itself. -/
theorem write_v0 (v : FVec Ideal S800000x64 .f32) :
    (StableHlo.TRef.of main_v0 : StableHlo.TRef sig ⟨S800000x64, .f32⟩).toBuf (Val := Elt Ideal) v = v := rfl
theorem write_v1 (v : FVec Ideal S800000x64 .f32) :
    (StableHlo.TRef.of main_v1 : StableHlo.TRef sig ⟨S800000x64, .f32⟩).toBuf (Val := Elt Ideal) v = v := rfl

/-! ## The gather with its fill, as one function of the table and the node numbers -/

/-- The node numbers, a negative one counted from the end of the table, as a one-column matrix. -/
def col (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- Per edge: does the wrapped node number lie in 0 … 49999? -/
def inTable (x : IVec S800000 32) : IVec S800000 1 :=
  Host.reduce IntOp.andi
    (andi (cmpi .sge (col x) (broadcastInDim S800000x1 ![] bcast_S_S800000x1 (constantI S_ 32 0#32)))
      (cmpi .sle (col x) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of table t that the node numbers x name, a row outside the table filled with the not-a-number pattern. -/
def take (t : FVec Ideal S50000x64 .f32) (x : IVec S800000 32) : FVec Ideal S800000x64 .f32 :=
  select (broadcastInDim S800000x64 ![0] bcast_S800000_S800000x64_0 (inTable x))
    (Host.gather gather_S50000x64_S800000x1_S800000x64_1_0_n_n_0_1_164 t (col x))
    (broadcastInDim S800000x64 ![] bcast_S_S800000x64 (constant (F := Ideal) S_ .f32 0x7FC00000#32))

/-- The first stretch leaves the gather of the "from" numbers in its result array … -/
theorem v0_after (V : Valuation τ sig (Elt Ideal)) :
    StableHlo.after hostOps0 V (Proc.devRef .tc main_v0)
      = take (V (Proc.devRef .tc main_arg0)) (V (Proc.devRef .tc main_arg14)) := by
  after_results_simp
  simp only [ofBuf_toBuf, read_arg0, read_arg14]
  exact write_v0 _

/-- … and the second the gather of the "to" numbers. -/
theorem v1_after (V : Valuation τ sig (Elt Ideal)) :
    StableHlo.after hostOps0_1 V (Proc.devRef .tc main_v1)
      = take (V (Proc.devRef .tc main_arg0)) (V (Proc.devRef .tc main_arg15)) := by
  after_results_simp
  simp only [ofBuf_toBuf, read_arg0, read_arg15]
  exact write_v1 _

/-! ## Words: a node number in the table -/

theorem toInt_zero32 : (0#32 : BitVec 32).toInt = 0 := by decide
theorem toInt_last32 : (49999#32 : BitVec 32).toInt = 49999 := by decide

/-- A non-negative word is not below zero … -/
theorem slt_zero_of_nonneg (i : BitVec 32) (h : 0 ≤ i.toInt) : IntOp.cmpi .slt i 0#32 = 0#1 := by
  have h' : ¬ i.toInt < (0#32 : BitVec 32).toInt := by rw [toInt_zero32]; omega
  show BitVec.ofBool (decide (i.toInt < (0#32 : BitVec 32).toInt)) = 0#1
  rw [decide_eq_false h']; rfl

/-- … it is at least zero … -/
theorem sge_zero_of_nonneg (i : BitVec 32) (h : 0 ≤ i.toInt) : IntOp.cmpi .sge i 0#32 = 1#1 := by
  have h' : (0#32 : BitVec 32).toInt ≤ i.toInt := by rw [toInt_zero32]; exact h
  show BitVec.ofBool (decide ((0#32 : BitVec 32).toInt ≤ i.toInt)) = 1#1
  rw [decide_eq_true h']; rfl

/-- … and a word below 50000 is at most 49999. -/
theorem sle_last_of_lt (i : BitVec 32) (h : i.toInt < 50000) : IntOp.cmpi .sle i 49999#32 = 1#1 := by
  have h' : i.toInt ≤ (49999#32 : BitVec 32).toInt := by rw [toInt_last32]; omega
  show BitVec.ofBool (decide (i.toInt ≤ (49999#32 : BitVec 32).toInt)) = 1#1
  rw [decide_eq_true h']; rfl

/-- A non-negative node number is not moved by the wrap. -/
theorem wrap_of_nonneg (i : BitVec 32) (h : 0 ≤ i.toInt) : GraphProp.wrap i = i := by
  unfold GraphProp.wrap
  rw [slt_zero_of_nonneg i h]
  exact select_zero _ _

/-! ## An "and" over ones -/

/-- An "and" fold from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- An "and" reduction, started at 1, of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun n _ => hx n

/-! ## The gather read at one element -/

/-- A vector laid along the rows of a matrix reads, at (p, q), the vector at p. -/
theorem bcast_rows_apply {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  refine broadcastInDim_apply ![0] h v (ix2 p q) (ix1 p) fun a => ?_
  match a with
  | ⟨0, _⟩ =>
    show p.val = if n = 1 then 0 else p.val
    split
    · have := p.isLt; omega
    · rfl

/-- The column holds, at edge p, the wrapped node number of edge p. -/
theorem col_apply (x : IVec S800000 32) (p : Fin 800000) (q : Fin 1) :
    col x (ix2 p q) = GraphProp.wrap (x (ix1 p)) := by
  unfold col
  exact (bcast_rows_apply _ _ p q).trans rfl

/-- With every node number in the table, every edge's test is 1. -/
theorem inTable_one (x : IVec S800000 32) (hx : InRange x) (e : Fin 800000) : inTable x (ix1 e) = 1#1 := by
  unfold inTable
  refine reduce_andi_ones _ _ _ _ (fun i => ?_) rfl _
  obtain ⟨p, q, rfl⟩ : ∃ p q, i = ix2 p q := ⟨i 0, i 1, eq_ix2 i⟩
  obtain ⟨h0, h1⟩ := hx p
  show IntOp.andi (IntOp.cmpi .sge (col x (ix2 p q)) 0#32) (IntOp.cmpi .sle (col x (ix2 p q)) 49999#32) = 1#1
  rw [col_apply, wrap_of_nonneg _ h0, sge_zero_of_nonneg _ h0, sle_last_of_lt _ h1]
  decide

/-- THE GATHER AT (e, a): with every node number in the table nothing is filled, and the element is the table's at
    (the row edge e's number names, a). -/
theorem take_apply (t : FVec Ideal S50000x64 .f32) (x : IVec S800000 32) (hx : InRange x) (e : Fin 800000) (a : Fin 64) :
    take t x (ix2 e a) = t (ix2 (GraphProp.rowOf (x (ix1 e))) a) := by
  have hc : broadcastInDim S800000x64 ![0] bcast_S800000_S800000x64_0 (inTable x) (ix2 e a) = 1#1 :=
    (bcast_rows_apply _ (inTable x) e a).trans (inTable_one x hx e)
  have hg : Host.gather gather_S50000x64_S800000x1_S800000x64_1_0_n_n_0_1_164 t (col x) (ix2 e a)
      = t (ix2 (GraphProp.rowOf (x (ix1 e))) a) := by
    refine (RowGather.gather_rows_apply _ rfl rfl rfl rfl rfl t (col x) e a (by decide)).trans ?_
    rw [col_apply]
    rfl
  unfold take
  rw [select_apply, hc, select_one, hg]

/-! ## Buffers the stretches do not write -/

/-- The buffer at hand is the result buffer of no operation of the stretch at hand. -/
local macro "unwritten" : tactic => `(tactic| (
  refine List.forall_iff_forall_mem.mp ?_
  simp only [hostOps0, hostOps0_1, hostOps0_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- A buffer the first stretch does not write holds after it what it was launched with … -/
theorem W1_keep (c : Dev nD) (r : Ref sig .tc)
    (h0 : ∀ op ∈ (hostOps0 : List (HloOp τ sig (Elt Ideal))), Proc.devRef .tc r ∉ op.writes) :
    W1 m ρ c (Proc.devRef .tc r) = m ((c : Thread nD τ).loc r) :=
  calc W1 m ρ c (Proc.devRef .tc r)
    _ = W0 m ρ c (Proc.devRef .tc r) := StableHlo.after_of_forall_not_mem _ _ h0
    _ = m ((c : Thread nD τ).loc r) := rfl

/-- … likewise after the first two … -/
theorem W2_keep (c : Dev nD) (r : Ref sig .tc)
    (h1 : ∀ op ∈ (hostOps0_1 : List (HloOp τ sig (Elt Ideal))), Proc.devRef .tc r ∉ op.writes)
    (h0 : ∀ op ∈ (hostOps0 : List (HloOp τ sig (Elt Ideal))), Proc.devRef .tc r ∉ op.writes) :
    W2 m ρ c (Proc.devRef .tc r) = m ((c : Thread nD τ).loc r) :=
  calc W2 m ρ c (Proc.devRef .tc r)
    _ = W1 m ρ c (Proc.devRef .tc r) := StableHlo.after_of_forall_not_mem _ _ h1
    _ = m ((c : Thread nD τ).loc r) := W1_keep m ρ c r h0

/-- … and after all three, when the edge region is entered. -/
theorem W3_keep (c : Dev nD) (r : Ref sig .tc)
    (h2 : ∀ op ∈ (hostOps0_2 : List (HloOp τ sig (Elt Ideal))), Proc.devRef .tc r ∉ op.writes)
    (h1 : ∀ op ∈ (hostOps0_1 : List (HloOp τ sig (Elt Ideal))), Proc.devRef .tc r ∉ op.writes)
    (h0 : ∀ op ∈ (hostOps0 : List (HloOp τ sig (Elt Ideal))), Proc.devRef .tc r ∉ op.writes) :
    W3 m ρ c (Proc.devRef .tc r) = m ((c : Thread nD τ).loc r) :=
  calc W3 m ρ c (Proc.devRef .tc r)
    _ = W2 m ρ c (Proc.devRef .tc r) := StableHlo.after_of_forall_not_mem _ _ h2
    _ = m ((c : Thread nD τ).loc r) := W2_keep m ρ c r h1 h0

/-! ## The two gathered arrays when the edge region is entered -/

/-- The gathered "from" rows: the gather of the launch table at the launch "from" numbers. -/
theorem v0_eq (c : Dev nD) : (V3 m ρ c main_v0 : FVec Ideal S800000x64 .f32) = take (a0 m c) (a14 m c) :=
  calc W3 m ρ c (Proc.devRef .tc main_v0)
    _ = W2 m ρ c (Proc.devRef .tc main_v0) := StableHlo.after_of_forall_not_mem _ _ (by unwritten)
    _ = W1 m ρ c (Proc.devRef .tc main_v0) := StableHlo.after_of_forall_not_mem _ _ (by unwritten)
    _ = take (a0 m c) (a14 m c) := v0_after (W0 m ρ c)

/-- The gathered "to" rows: the gather of the launch table at the launch "to" numbers. -/
theorem v1_eq (c : Dev nD) : (V3 m ρ c main_v1 : FVec Ideal S800000x64 .f32) = take (a0 m c) (a15 m c) :=
  calc W3 m ρ c (Proc.devRef .tc main_v1)
    _ = W2 m ρ c (Proc.devRef .tc main_v1) := StableHlo.after_of_forall_not_mem _ _ (by unwritten)
    _ = take (W1 m ρ c (Proc.devRef .tc main_arg0)) (W1 m ρ c (Proc.devRef .tc main_arg15)) := v1_after (W1 m ρ c)
    _ = take (a0 m c) (a15 m c) := by
      rw [W1_keep m ρ c main_arg0 (by unwritten), W1_keep m ρ c main_arg15 (by unwritten)]

/-! ## The four biases as one-row matrices -/

/-- The third stretch leaves in each one-row matrix its bias vector, recast. -/
theorem v2_after (V : Valuation τ sig (Elt Ideal)) :
    (StableHlo.after hostOps0_2 V (Proc.devRef .tc main_v2) : FVec Ideal S1x128 .f32)
      = shapeCast S1x128 (V (Proc.devRef .tc main_arg3) : FVec Ideal S128 .f32) shapeCasts_S128_S1x128 := by
  after_results
  rfl
theorem v3_after (V : Valuation τ sig (Elt Ideal)) :
    (StableHlo.after hostOps0_2 V (Proc.devRef .tc main_v3) : FVec Ideal S1x128 .f32)
      = shapeCast S1x128 (V (Proc.devRef .tc main_arg5) : FVec Ideal S128 .f32) shapeCasts_S128_S1x128 := by
  after_results
  rfl
theorem v4_after (V : Valuation τ sig (Elt Ideal)) :
    (StableHlo.after hostOps0_2 V (Proc.devRef .tc main_v4) : FVec Ideal S1x128 .f32)
      = shapeCast S1x128 (V (Proc.devRef .tc main_arg7) : FVec Ideal S128 .f32) shapeCasts_S128_S1x128 := by
  after_results
  rfl
theorem v5_after (V : Valuation τ sig (Elt Ideal)) :
    (StableHlo.after hostOps0_2 V (Proc.devRef .tc main_v5) : FVec Ideal S1x128 .f32)
      = shapeCast S1x128 (V (Proc.devRef .tc main_arg9) : FVec Ideal S128 .f32) shapeCasts_S128_S1x128 := by
  after_results
  rfl

/-- A vector recast as a one-row matrix reads, at (0, k), the vector at k. -/
theorem row_of_vec (v w : FVec Ideal S128 .f32) (hv : v = w) (k : Fin 128) :
    shapeCast S1x128 v shapeCasts_S128_S1x128 (ix2 0 k) = w (ix1 k) := by
  subst hv
  exact shapeCast_a_1a_apply _ _ 0 k

/-- Row e of the gathered "from" rows is the node table's row for edge e's "from" number. -/
theorem nf_at (c : Dev nD) (hfi : InRange (a14 m c)) (e : Fin 800000) (a : Fin 64) :
    (V3 m ρ c main_v0 : FVec Ideal S800000x64 .f32) (ix2 e a) = a0 m c (ix2 (GraphProp.rowOf (a14 m c (ix1 e))) a) := by
  rw [v0_eq]
  exact take_apply _ _ hfi e a

/-- Row e of the gathered "to" rows is the node table's row for edge e's "to" number. -/
theorem nt_at (c : Dev nD) (hti : InRange (a15 m c)) (e : Fin 800000) (a : Fin 64) :
    (V3 m ρ c main_v1 : FVec Ideal S800000x64 .f32) (ix2 e a) = a0 m c (ix2 (GraphProp.rowOf (a15 m c (ix1 e))) a) := by
  rw [v1_eq]
  exact take_apply _ _ hti e a

/-- The four biases as one-row matrices. -/
theorem b1f_at (c : Dev nD) (k : Fin 128) : (V3 m ρ c main_v2 : FVec Ideal S1x128 .f32) (ix2 0 k) = a3 m c (ix1 k) :=
  (congrFun (v2_after (W2 m ρ c)) (ix2 0 k)).trans
    (row_of_vec _ _ (W2_keep m ρ c main_arg3 (by unwritten) (by unwritten)) k)
theorem b2f_at (c : Dev nD) (k : Fin 128) : (V3 m ρ c main_v3 : FVec Ideal S1x128 .f32) (ix2 0 k) = a5 m c (ix1 k) :=
  (congrFun (v3_after (W2 m ρ c)) (ix2 0 k)).trans
    (row_of_vec _ _ (W2_keep m ρ c main_arg5 (by unwritten) (by unwritten)) k)
theorem b1r_at (c : Dev nD) (k : Fin 128) : (V3 m ρ c main_v4 : FVec Ideal S1x128 .f32) (ix2 0 k) = a7 m c (ix1 k) :=
  (congrFun (v4_after (W2 m ρ c)) (ix2 0 k)).trans
    (row_of_vec _ _ (W2_keep m ρ c main_arg7 (by unwritten) (by unwritten)) k)
theorem b2r_at (c : Dev nD) (k : Fin 128) : (V3 m ρ c main_v5 : FVec Ideal S1x128 .f32) (ix2 0 k) = a9 m c (ix1 k) :=
  (congrFun (v5_after (W2 m ρ c)) (ix2 0 k)).trans
    (row_of_vec _ _ (W2_keep m ρ c main_arg9 (by unwritten) (by unwritten)) k)

/-- The arguments the region reads directly are as launched. -/
theorem arg1_eq (c : Dev nD) : (V3 m ρ c main_arg1 : FVec Ideal S800000x64 .f32) = a1 m c :=
  W3_keep m ρ c main_arg1 (by unwritten) (by unwritten) (by unwritten)
theorem arg2_eq (c : Dev nD) : (V3 m ρ c main_arg2 : FVec Ideal S192x128 .f32) = a2 m c :=
  W3_keep m ρ c main_arg2 (by unwritten) (by unwritten) (by unwritten)
theorem arg4_eq (c : Dev nD) : (V3 m ρ c main_arg4 : FVec Ideal S128x128 .f32) = a4 m c :=
  W3_keep m ρ c main_arg4 (by unwritten) (by unwritten) (by unwritten)
theorem arg6_eq (c : Dev nD) : (V3 m ρ c main_arg6 : FVec Ideal S192x128 .f32) = a6 m c :=
  W3_keep m ρ c main_arg6 (by unwritten) (by unwritten) (by unwritten)
theorem arg8_eq (c : Dev nD) : (V3 m ρ c main_arg8 : FVec Ideal S128x128 .f32) = a8 m c :=
  W3_keep m ρ c main_arg8 (by unwritten) (by unwritten) (by unwritten)

end Cert.KernelIdeal.HostIn

end
-- ==== Proof.HostMid.lean ====
/-
  What the node region finds when it is entered. Between the two regions the program stacks the forward messages on the
  reverse ones (1600000 rows), stacks the "to" numbers on the "from" numbers the same way, and adds every stacked row into
  the row of a zero table that its number names. Entry (n, a) of that table is therefore what node n collects at feature
  a: the forward messages of the edges pointing to n plus the reverse messages of the edges pointing from n. Two bias
  vectors are reshaped into one-row matrices; every other array the region reads is an argument as launched.
-/
import proofs.«426496_j90744069030597_2_alg».proof.Proof.Gen.KernelIdeal.Frame
import proofs.«426496_j90744069030597_2_alg».proof.Proof.Spec
import proofs.«426496_j90744069030597_2_alg».proof.Proof.Laws
import proofs.«426496_j90744069030597_2_alg».proof.Proof.KArgs
import proofs.«426496_j90744069030597_2_alg».proof.Proof.LibRowGather
import proofs.«426496_j90744069030597_2_alg».proof.Proof.LibScatterRows
import proofs.«426496_j90744069030597_2_alg».proof.Proof.LibScatterHit
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Run
import Idealize.ShloMosaic.Lib.StableHlo.Predicate
import Idealize.ShloMosaic.PureOps.Ideal.Laws

set_option maxRecDepth 16384

noncomputable section

namespace Cert.KernelIdeal.HostMid

open Cert.KernelIdeal Cert.KernelIdeal.Gen Cert.KernelIdeal.Args Idealize.ShloMosaic Idealize.ShloMosaic.TcCoe Idealize.ShloMosaic.ValueIdx Idealize.SL.Sem

variable (m : (ℓ : Loc nD τ sig) → Buf (Elt Ideal) ℓ) (ρ : Dev nD → PrngReg)

/-- The two message arrays as the edge region leaves them. -/
abbrev mfA (c : Dev nD) : FVec Ideal S800000x128 .bf16 := V4 m ρ c main_v6_0
abbrev mrA (c : Dev nD) : FVec Ideal S800000x128 .bf16 := V4 m ρ c main_v6_1

/-! ## The arguments between the two regions

No operation of the stretch between the regions writes an argument, and the edge region writes none either, so each
argument's buffer holds at the node region's entry, and at the edge region's exit, what it was launched with. -/

/-- The stretch between the regions leaves the "from" numbers, the "to" numbers and the two bias vectors alone. -/
theorem keep_arg14 (c : Dev nD) : W5 m ρ c (Proc.devRef .tc main_arg14) = W4 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem keep_arg15 (c : Dev nD) : W5 m ρ c (Proc.devRef .tc main_arg15) = W4 m ρ c (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem keep_arg11 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem keep_arg13 (c : Dev nD) : W5 m ρ c (Proc.devRef .tc main_arg13) = W4 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- At the node region's entry these four arguments are as launched: the region does not write them either. -/
theorem entry_arg14 (c : Dev nD) : W5 m ρ c (Proc.devRef .tc main_arg14) = a14 m c :=
  (W6_of_ne m ρ c main_arg14 (by decide)).symm.trans (W6_main_arg14 m ρ c)
theorem entry_arg15 (c : Dev nD) : W5 m ρ c (Proc.devRef .tc main_arg15) = a15 m c :=
  (W6_of_ne m ρ c main_arg15 (by decide)).symm.trans (W6_main_arg15 m ρ c)
theorem entry_arg11 (c : Dev nD) : W5 m ρ c (Proc.devRef .tc main_arg11) = a11 m c :=
  (W6_of_ne m ρ c main_arg11 (by decide)).symm.trans (W6_main_arg11 m ρ c)
theorem entry_arg13 (c : Dev nD) : W5 m ρ c (Proc.devRef .tc main_arg13) = a13 m c :=
  (W6_of_ne m ρ c main_arg13 (by decide)).symm.trans (W6_main_arg13 m ρ c)

/-- So they are as launched at the edge region's exit too. -/
theorem exit_arg14 (c : Dev nD) : W4 m ρ c (Proc.devRef .tc main_arg14) = a14 m c :=
  (keep_arg14 m ρ c).symm.trans (entry_arg14 m ρ c)
theorem exit_arg15 (c : Dev nD) : W4 m ρ c (Proc.devRef .tc main_arg15) = a15 m c :=
  (keep_arg15 m ρ c).symm.trans (entry_arg15 m ρ c)
theorem exit_arg11 (c : Dev nD) : W4 m ρ c (Proc.devRef .tc main_arg11) = a11 m c :=
  (keep_arg11 m ρ c).symm.trans (entry_arg11 m ρ c)
theorem exit_arg13 (c : Dev nD) : W4 m ρ c (Proc.devRef .tc main_arg13) = a13 m c :=
  (keep_arg13 m ρ c).symm.trans (entry_arg13 m ρ c)

/-! ## The stacked arrays read at a row of either half -/

/-- The zero table reads zero everywhere. -/
theorem zeros_at (j : S50000x128.Idx) :
    broadcastInDim S50000x128 ![] bcast_S_S50000x128 (constant (F := Ideal) S_ .f32 0x00000000#32) j = (0 : EReal) :=
  (broadcastInDim_apply _ _ _ j ix0 (fun a => a.elim0)).trans Ideal.ofBits_zero_f32

/-- Row e of the first half of the stacked number column is number e of the array stacked first. -/
theorem idx_first (x y : IVec S800000 32) (e : Fin 800000) :
    broadcastInDim S1600000x1 ![0] bcast_S1600000_S1600000x1_0
        (concatenate S1600000 0 [⟨S800000, x⟩, ⟨S800000, y⟩] concatenates_S800000_S800000_S1600000_d0)
        (ix2 (GraphProp.firstHalf e) (0 : Fin 1)) = x (ix1 e) := by
  refine (broadcastInDim_apply _ _ _ _ (ix1 (GraphProp.firstHalf e)) (fun a => ?_)).trans ?_
  · have h1 : ¬ (1600000 : ℕ) = 1 := by decide
    match a with
    | ⟨0, _⟩ => exact (if_neg h1).symm
  · exact concatenate_pair_apply_left (t := S1600000) (s₁ := S800000) (s₂ := S800000) 0 x y
      concatenates_S800000_S800000_S1600000_d0 (ix1 (GraphProp.firstHalf e)) rfl (ix1 e)
      (fun b => by match b with | ⟨0, _⟩ => rfl)

/-- Row e of the second half is number e of the array stacked second. -/
theorem idx_second (x y : IVec S800000 32) (e : Fin 800000) :
    broadcastInDim S1600000x1 ![0] bcast_S1600000_S1600000x1_0
        (concatenate S1600000 0 [⟨S800000, x⟩, ⟨S800000, y⟩] concatenates_S800000_S800000_S1600000_d0)
        (ix2 (GraphProp.secondHalf e) (0 : Fin 1)) = y (ix1 e) := by
  refine (broadcastInDim_apply _ _ _ _ (ix1 (GraphProp.secondHalf e)) (fun a => ?_)).trans ?_
  · have h1 : ¬ (1600000 : ℕ) = 1 := by decide
    match a with
    | ⟨0, _⟩ => exact (if_neg h1).symm
  · exact concatenate_pair_apply_right (t := S1600000) (s₁ := S800000) (s₂ := S800000) 0 x y
      concatenates_S800000_S800000_S1600000_d0 (ix1 (GraphProp.secondHalf e)) rfl rfl (ix1 e)
      (fun b hb => by match b with | ⟨0, _⟩ => exact absurd rfl hb)
      (by show e.val + 800000 = 800000 + e.val; exact Nat.add_comm _ _)

/-- Row e of the first half of the stacked messages, widened, is row e of the array stacked first. -/
theorem upd_first (x y : FVec Ideal S800000x128 .bf16) (e : Fin 800000) (a : Fin 128) :
    (extf .f32 (concatenate S1600000x128 0 [⟨S800000x128, x⟩, ⟨S800000x128, y⟩]
        concatenates_S800000x128_S800000x128_S1600000x128_d0) bitsLt_bf16_f32 : FVec Ideal S1600000x128 .f32)
      (ix2 (GraphProp.firstHalf e) a) = x (ix2 e a) :=
  (extf_apply (φ := .bf16) (ψ := .f32) _ bitsLt_bf16_f32 _).trans
    (concatenate_pair_apply_left (t := S1600000x128) (s₁ := S800000x128) (s₂ := S800000x128) 0 x y
      concatenates_S800000x128_S800000x128_S1600000x128_d0 (ix2 (GraphProp.firstHalf e) a) rfl (ix2 e a)
      (fun b => by match b with | ⟨0, _⟩ => rfl | ⟨1, _⟩ => rfl))

/-- Row e of the second half is row e of the array stacked second. -/
theorem upd_second (x y : FVec Ideal S800000x128 .bf16) (e : Fin 800000) (a : Fin 128) :
    (extf .f32 (concatenate S1600000x128 0 [⟨S800000x128, x⟩, ⟨S800000x128, y⟩]
        concatenates_S800000x128_S800000x128_S1600000x128_d0) bitsLt_bf16_f32 : FVec Ideal S1600000x128 .f32)
      (ix2 (GraphProp.secondHalf e) a) = y (ix2 e a) :=
  (extf_apply (φ := .bf16) (ψ := .f32) _ bitsLt_bf16_f32 _).trans
    (concatenate_pair_apply_right (t := S1600000x128) (s₁ := S800000x128) (s₂ := S800000x128) 0 x y
      concatenates_S800000x128_S800000x128_S1600000x128_d0 (ix2 (GraphProp.secondHalf e) a) rfl rfl (ix2 e a)
      (fun b hb => by match b with | ⟨0, _⟩ => exact absurd rfl hb | ⟨1, _⟩ => rfl)
      (by show e.val + 800000 = 800000 + e.val; exact Nat.add_comm _ _))

/-! ## The collected table -/

/-- The collected table as one term over the edge region's exit buffers. -/
theorem v12_term (c : Dev nD) :
    (V5 m ρ c main_v12 : FVec Ideal S50000x128 .f32)
      = Host.scatterAdd (F := Ideal) (φ := .f32) scatter_S50000x128_S1600000x1_S1600000x128_1_0_0_1
          (broadcastInDim S50000x128 ![] bcast_S_S50000x128 (constant (F := Ideal) S_ .f32 0x00000000#32))
          (broadcastInDim S1600000x1 ![0] bcast_S1600000_S1600000x1_0
            (concatenate S1600000 0 [⟨S800000, (W4 m ρ c (Proc.devRef .tc main_arg15) : IVec S800000 32)⟩,
              ⟨S800000, (W4 m ρ c (Proc.devRef .tc main_arg14) : IVec S800000 32)⟩] concatenates_S800000_S800000_S1600000_d0))
          (extf .f32 (concatenate S1600000x128 0 [⟨S800000x128, mfA m ρ c⟩, ⟨S800000x128, mrA m ρ c⟩]
            concatenates_S800000x128_S800000x128_S1600000x128_d0) bitsLt_bf16_f32) := by
  show StableHlo.after hostOps1 _ (Proc.devRef .tc main_v12) = _
  after_results

/-- Entry (n, a) of the collected table. -/
theorem agg_at (c : Dev nD) (n : Fin 50000) (a : Fin 128) :
    (V5 m ρ c main_v12 : FVec Ideal S50000x128 .f32) (ix2 n a)
      = GraphProp.collect (fun e => mfA m ρ c (ix2 e a)) (fun e => mrA m ρ c (ix2 e a))
          (fun e => a15 m c (ix1 e)) (fun e => a14 m c (ix1 e)) n := by
  refine (congrFun (v12_term m ρ c) _).trans ?_
  refine (RowScatter.scatterAdd_rows_apply _ rfl rfl rfl rfl _ _ _ n a).trans ?_
  refine (congrArg₂ (· + ·) (zeros_at _) (GraphProp.sum_two_halves _)).trans ?_
  unfold GraphProp.collect
  refine (zero_add _).trans (congrArg₂ (· + ·) ?_ ?_)
  · refine (Finset.sum_congr rfl fun e _ => ?_).trans (zero_add _).symm
    rw [idx_first, upd_first, exit_arg15]
  · refine (Finset.sum_congr rfl fun e _ => ?_).trans (zero_add _).symm
    rw [idx_second, upd_second, exit_arg14]

/-! ## The two bias rows -/

/-- The update perceptron's biases as one-row matrices. -/
theorem bn1_at (c : Dev nD) (k : Fin 128) : (V5 m ρ c main_v13 : FVec Ideal S1x128 .f32) (ix2 0 k) = a11 m c (ix1 k) := by
  have e : (V5 m ρ c main_v13 : FVec Ideal S1x128 .f32)
      = shapeCast S1x128 (W4 m ρ c (Proc.devRef .tc main_arg11) : FVec Ideal S128 .f32) shapeCasts_S128_S1x128 := by
    show StableHlo.after hostOps1 _ (Proc.devRef .tc main_v13) = _
    after_results
    rfl
  refine (congrFun e _).trans ((shapeCast_a_1a_apply _ _ 0 k).trans ?_)
  rw [exit_arg11]
theorem bn2_at (c : Dev nD) (k : Fin 64) : (V5 m ρ c main_v14 : FVec Ideal S1x64 .f32) (ix2 0 k) = a13 m c (ix1 k) := by
  have e : (V5 m ρ c main_v14 : FVec Ideal S1x64 .f32)
      = shapeCast S1x64 (W4 m ρ c (Proc.devRef .tc main_arg13) : FVec Ideal S64 .f32) shapeCasts_S64_S1x64 := by
    show StableHlo.after hostOps1 _ (Proc.devRef .tc main_v14) = _
    after_results
    rfl
  refine (congrFun e _).trans ((shapeCast_a_1a_apply _ _ 0 k).trans ?_)
  rw [exit_arg13]

/-! ## The arguments the node region reads directly -/

/-- The arguments the region reads directly are as launched: an input window of the region leaves its array as entered. -/
theorem arg0_eq (c : Dev nD) : (V5 m ρ c main_arg0 : FVec Ideal S50000x64 .f32) = a0 m c :=
  ((W6_arr m ρ c 1).trans (((dat1 (V5 m ρ) c).arrAt_in 1 rfl _).trans (A_eq1 (V5 m ρ) c 1))).symm.trans (W6_main_arg0 m ρ c)
theorem arg10_eq (c : Dev nD) : (V5 m ρ c main_arg10 : FVec Ideal S192x128 .f32) = a10 m c :=
  ((W6_arr m ρ c 2).trans (((dat1 (V5 m ρ) c).arrAt_in 2 rfl _).trans (A_eq1 (V5 m ρ) c 2))).symm.trans (W6_main_arg10 m ρ c)
theorem arg12_eq (c : Dev nD) : (V5 m ρ c main_arg12 : FVec Ideal S128x64 .f32) = a12 m c :=
  ((W6_arr m ρ c 4).trans (((dat1 (V5 m ρ) c).arrAt_in 4 rfl _).trans (A_eq1 (V5 m ρ) c 4))).symm.trans (W6_main_arg12 m ρ c)

end Cert.KernelIdeal.HostMid

end
-- ==== Proof.KernelValue.lean ====
/-
  The kernel program's result, entry by entry, from the launch memory. The result array is what the node region leaves;
  the node region reads the collected table, which the stacked scatter fills from the two message arrays the edge region
  leaves; the edge region reads the gathered node rows. With every node number a row of the table, each link reads back
  to the launch arguments, and entry (n, j) of the result is node n's new state at feature j.
-/
import proofs.«426496_j90744069030597_2_alg».proof.Proof.Gen.KernelIdeal.Frame
import proofs.«426496_j90744069030597_2_alg».proof.Proof.Spec
import proofs.«426496_j90744069030597_2_alg».proof.Proof.KArgs
import proofs.«426496_j90744069030597_2_alg».proof.Proof.EdgeRegion
import proofs.«426496_j90744069030597_2_alg».proof.Proof.NodeRegion
import proofs.«426496_j90744069030597_2_alg».proof.Proof.HostIn
import proofs.«426496_j90744069030597_2_alg».proof.Proof.HostMid
import Idealize.ShloMosaic.Lib.ValueIdx

set_option maxRecDepth 16384

noncomputable section

namespace Cert.GraphProp

/-- A message depends only on its rows and weights. -/
theorem edgeMsg_congr {x x' y y' z z' : Fin 64 → EReal} {W1 W1' : Fin 192 → Fin 128 → EReal} {b1 b1' : Fin 128 → EReal}
    {W2 W2' : Fin 128 → Fin 128 → EReal} {b2 b2' : Fin 128 → EReal} (hx : x = x') (hy : y = y') (hz : z = z')
    (hW1 : W1 = W1') (hb1 : b1 = b1') (hW2 : W2 = W2') (hb2 : b2 = b2') (j : Fin 128) :
    edgeMsg x y z W1 b1 W2 b2 j = edgeMsg x' y' z' W1' b1' W2' b2' j := by
  subst hx hy hz hW1 hb1 hW2 hb2; rfl

/-- A node's new state depends only on its rows and weights. -/
theorem nodeOut_congr {g g' : Fin 128 → EReal} {s s' : Fin 64 → EReal} {Wn1 Wn1' : Fin 192 → Fin 128 → EReal}
    {bn1 bn1' : Fin 128 → EReal} {Wn2 Wn2' : Fin 128 → Fin 64 → EReal} {bn2 bn2' : Fin 64 → EReal} (hg : g = g')
    (hs : s = s') (hW1 : Wn1 = Wn1') (hb1 : bn1 = bn1') (hW2 : Wn2 = Wn2') (hb2 : bn2 = bn2') (j : Fin 64) :
    nodeOut g s Wn1 bn1 Wn2 bn2 j = nodeOut g' s' Wn1' bn1' Wn2' bn2' j := by
  subst hg hs hW1 hb1 hW2 hb2; rfl

end Cert.GraphProp

namespace Cert.KernelIdeal.KValue

open Cert.KernelIdeal Cert.KernelIdeal.Gen Cert.KernelIdeal.Args Idealize.ShloMosaic Idealize.ShloMosaic.TcCoe Idealize.ShloMosaic.ValueIdx Idealize.SL.Sem

variable (m : (ℓ : Loc nD τ sig) → Buf (Elt Ideal) ℓ) (ρ : Dev nD → PrngReg)

/-- Entry (e, j) of the forward message array the edge region leaves is edge e's forward message. -/
theorem mf_at (c : Dev nD) (hfi : InRange (a14 m c)) (hti : InRange (a15 m c)) (e : Fin 800000) (j : Fin 128) :
    HostMid.mfA m ρ c (ix2 e j) = (inputs m c).msgF e j := by
  have h : HostMid.mfA m ρ c = EdgeRegion.outF (V3 m ρ) c := W4_arr m ρ c 11
  refine (congrFun h (ix2 e j)).trans ((EdgeRegion.msgF_at (V3 m ρ) c e j).trans ?_)
  unfold GraphProp.Inputs.msgF
  exact GraphProp.edgeMsg_congr (funext fun a => HostIn.nf_at m ρ c hfi e a) (funext fun a => HostIn.nt_at m ρ c hti e a)
    (funext fun a => congrFun (HostIn.arg1_eq m ρ c) (ix2 e a))
    (funext fun r => funext fun k => congrFun (HostIn.arg2_eq m ρ c) (ix2 r k)) (funext fun k => HostIn.b1f_at m ρ c k)
    (funext fun k => funext fun j => congrFun (HostIn.arg4_eq m ρ c) (ix2 k j)) (funext fun j => HostIn.b2f_at m ρ c j) j

/-- Entry (e, j) of the reverse message array the edge region leaves is edge e's reverse message. -/
theorem mr_at (c : Dev nD) (hfi : InRange (a14 m c)) (hti : InRange (a15 m c)) (e : Fin 800000) (j : Fin 128) :
    HostMid.mrA m ρ c (ix2 e j) = (inputs m c).msgR e j := by
  have h : HostMid.mrA m ρ c = EdgeRegion.outR (V3 m ρ) c := W4_arr m ρ c 12
  refine (congrFun h (ix2 e j)).trans ((EdgeRegion.msgR_at (V3 m ρ) c e j).trans ?_)
  unfold GraphProp.Inputs.msgR
  exact GraphProp.edgeMsg_congr (funext fun a => HostIn.nt_at m ρ c hti e a) (funext fun a => HostIn.nf_at m ρ c hfi e a)
    (funext fun a => congrFun (HostIn.arg1_eq m ρ c) (ix2 e a))
    (funext fun r => funext fun k => congrFun (HostIn.arg6_eq m ρ c) (ix2 r k)) (funext fun k => HostIn.b1r_at m ρ c k)
    (funext fun k => funext fun j => congrFun (HostIn.arg8_eq m ρ c) (ix2 k j)) (funext fun j => HostIn.b2r_at m ρ c j) j

/-- Row n of the collected table the node region finds is what node n collects. -/
theorem agg_row (c : Dev nD) (hfi : InRange (a14 m c)) (hti : InRange (a15 m c)) (n : Fin 50000) :
    (fun a => NodeRegion.aggA (V5 m ρ) c (ix2 n a)) = (inputs m c).agg n := by
  funext a
  refine (HostMid.agg_at m ρ c n a).trans ?_
  unfold GraphProp.Inputs.agg
  have e1 : (fun e => HostMid.mfA m ρ c (ix2 e a)) = fun e => (inputs m c).msgF e a :=
    funext fun e => mf_at m ρ c hfi hti e a
  have e2 : (fun e => HostMid.mrA m ρ c (ix2 e a)) = fun e => (inputs m c).msgR e a :=
    funext fun e => mr_at m ρ c hfi hti e a
  rw [e1, e2]
  rfl

/-- Entry (n, j) of the result array is node n's new state at feature j. -/
theorem result_at (c : Dev nD) (hfi : InRange (a14 m c)) (hti : InRange (a15 m c)) (n : Fin 50000) (j : Fin 64) :
    (W6 m ρ c (Proc.devRef .tc main_v15) : FVec Ideal S50000x64 .f32) (ix2 n j) = (inputs m c).out n j := by
  have h : (W6 m ρ c (Proc.devRef .tc main_v15) : FVec Ideal S50000x64 .f32) = NodeRegion.outN (V5 m ρ) c :=
    W6_arr m ρ c 6
  refine (congrFun h (ix2 n j)).trans ((NodeRegion.out_at (V5 m ρ) c n j).trans ?_)
  unfold GraphProp.Inputs.out
  exact GraphProp.nodeOut_congr (agg_row m ρ c hfi hti n) (funext fun a => congrFun (HostMid.arg0_eq m ρ c) (ix2 n a))
    (funext fun r => funext fun k => congrFun (HostMid.arg10_eq m ρ c) (ix2 r k)) (funext fun k => HostMid.bn1_at m ρ c k)
    (funext fun k => funext fun j => congrFun (HostMid.arg12_eq m ρ c) (ix2 k j)) (funext fun j => HostMid.bn2_at m ρ c j) j

end Cert.KernelIdeal.KValue

end
-- ==== Proof.PreRange.lean ====
/-
  The precondition says, beside the finiteness of the float inputs, that every "from" number and every "to" number is a
  row of the node table: 0 ≤ i < 50000 as signed integers. Each of the four comparisons is an all-reduction of a
  pointwise compare against a constant, and the precondition is their conjunction with the finiteness tests.
-/
import proofs.«426496_j90744069030597_2_alg».proof.Proof.Gen.KernelIdeal.Frame
import proofs.«426496_j90744069030597_2_alg».proof.Proof.Gen.Pre_finite_inputs
import proofs.«426496_j90744069030597_2_alg».proof.Defs
import proofs.«426496_j90744069030597_2_alg».proof.Proof.KArgs
import Idealize.ShloMosaic.Lib.ValueIdx
import Idealize.ShloMosaic.Lib.ReduceAll
import Idealize.ShloMosaic.Lib.StableHlo.Predicate

set_option maxRecDepth 16384

noncomputable section

namespace Cert.KernelIdeal.PreRange

open Cert.KernelIdeal Cert.KernelIdeal.Gen Cert.KernelIdeal.Args Idealize.ShloMosaic Idealize.ShloMosaic.TcCoe Idealize.ShloMosaic.ValueIdx Idealize.SL.Sem

/-- The scalar shape has exactly one index. -/
instance scalarIdx_subsingleton : Subsingleton Cert.Pre_finite_inputs.S_.Idx := ⟨fun a b => funext fun d => d.elim0⟩

/-- The last stretch of the precondition is the conjunction of everything tested before it with four all-reductions:
    "from ≥ 0", "from < 50000", "to ≥ 0", "to < 50000". When it is 1 each of the four is 1, so each pointwise compare is 1
    at every edge e, and a signed compare that is 1 says the order of the two integers; the constants read 0 and 50000. -/
theorem ranges_of_last [hF : Cert.Pre_finite_inputs.Facts] (x14 x15 : IVec Cert.Pre_finite_inputs.S800000 32)
    (u v : IVec Cert.Pre_finite_inputs.S_ 1)
    (h : Cert.Pre_finite_inputs.fn_part4 (F := Ideal) x14 x15 u v ix0 = 1#1) (e : Fin 800000) :
    (0 ≤ (x14 (ix1 e)).toInt ∧ (x14 (ix1 e)).toInt < 50000) ∧ (0 ≤ (x15 (ix1 e)).toInt ∧ (x15 (ix1 e)).toInt < 50000) := by
  dsimp only [Cert.Pre_finite_inputs.fn_part4, Cert.Pre_finite_inputs.fn_part5] at h
  -- the conjunction, split from the right
  obtain ⟨h, hd⟩ := IntOp.andi_eq_one.1 h
  obtain ⟨h, hc⟩ := IntOp.andi_eq_one.1 h
  obtain ⟨h, hb⟩ := IntOp.andi_eq_one.1 h
  obtain ⟨-, ha⟩ := IntOp.andi_eq_one.1 h
  -- each all-reduction that is 1 has a 1 at edge e
  have ta := Host.reduce_andi_all _ _ _ _ _ ha (ix1 e)
  have tb := Host.reduce_andi_all _ _ _ _ _ hb (ix1 e)
  have tc := Host.reduce_andi_all _ _ _ _ _ hc (ix1 e)
  have td := Host.reduce_andi_all _ _ _ _ _ hd (ix1 e)
  -- the compare at edge e is the word compare of the element with the broadcast constant
  have ea : (0#32 : BitVec 32).toInt ≤ (x14 (ix1 e)).toInt := IntOp.cmpi_sge.1 ta
  have eb : (x14 (ix1 e)).toInt < (50000#32 : BitVec 32).toInt := IntOp.cmpi_slt.1 tb
  have ec : (0#32 : BitVec 32).toInt ≤ (x15 (ix1 e)).toInt := IntOp.cmpi_sge.1 tc
  have ed : (x15 (ix1 e)).toInt < (50000#32 : BitVec 32).toInt := IntOp.cmpi_slt.1 td
  have z0 : (0#32 : BitVec 32).toInt = 0 := by decide
  have zN : (50000#32 : BitVec 32).toInt = 50000 := by decide
  rw [z0] at ea ec
  rw [zN] at eb ed
  exact ⟨⟨ea, eb⟩, ⟨ec, ed⟩⟩

/-- The precondition at the scalar result's one index is the last stretch applied to the two index arrays (the earlier
    stretches only compute the finiteness tests it is handed): both arrays are in range at every edge. -/
theorem both_range (m : (ℓ : Loc nD τ sig) → Buf (Elt Ideal) ℓ)
    (h : Cert.Pre_KernelIdeal (hPre_finite_inputs := Cert.Pre_finite_inputs.Gen.facts) m) (c : Dev nD) (e : Fin 800000) :
    (0 ≤ (a14 m c (ix1 e)).toInt ∧ (a14 m c (ix1 e)).toInt < 50000) ∧ (0 ≤ (a15 m c (ix1 e)).toInt ∧ (a15 m c (ix1 e)).toInt < 50000) := by
  have h0 := congrFun (h c) ix0
  dsimp only [Cert.Pre_finite_inputs.fn, Cert.Pre_finite_inputs.fn_part1, Cert.Pre_finite_inputs.fn_part2,
    Cert.Pre_finite_inputs.fn_part3] at h0
  exact ranges_of_last (hF := Cert.Pre_finite_inputs.Gen.facts) _ _ _ _ h0 e

/-- Under the precondition every "from" number is a row of the node table. -/
theorem from_range (m : (ℓ : Loc nD τ sig) → Buf (Elt Ideal) ℓ)
    (h : Cert.Pre_KernelIdeal (hPre_finite_inputs := Cert.Pre_finite_inputs.Gen.facts) m) (c : Dev nD) : InRange (a14 m c) :=
  fun e => (both_range m h c e).1

/-- Under the precondition every "to" number is a row of the node table. -/
theorem to_range (m : (ℓ : Loc nD τ sig) → Buf (Elt Ideal) ℓ)
    (h : Cert.Pre_KernelIdeal (hPre_finite_inputs := Cert.Pre_finite_inputs.Gen.facts) m) (c : Dev nD) : InRange (a15 m c) :=
  fun e => (both_range m h c e).2

end Cert.KernelIdeal.PreRange

end
-- ==== Proof.RefMsg.lean ====
/-
  The reference's two message arrays, entry by entry. The reference lays the "from" row, the "to" row and the edge
  features of an edge side by side as one 192-wide row and multiplies by the whole 192-row weight; a sum over 192 columns
  is the sum of the sums over its three 64-column slabs, so entry (e, j) is the same message as the one computed from
  three partial products. The reverse direction exchanges the two node rows.
-/
import proofs.«426496_j90744069030597_2_alg».proof.Proof.Gen.ReferenceIdeal.Read
import proofs.«426496_j90744069030597_2_alg».proof.Proof.Spec
import proofs.«426496_j90744069030597_2_alg».proof.Proof.Laws
import proofs.«426496_j90744069030597_2_alg».proof.Proof.LibRowGather
import proofs.«426496_j90744069030597_2_alg».proof.Proof.LibScatterRows
import proofs.«426496_j90744069030597_2_alg».proof.Proof.LibScatterHit
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.RefMsg

open Cert.ReferenceIdeal Cert.ReferenceIdeal.Gen Cert.ReferenceIdeal.Read Idealize.ShloMosaic Idealize.ShloMosaic.TcCoe Idealize.ShloMosaic.ValueIdx Idealize.SL.Sem

/-! ### The row a node number reads -/

/-- The start index the first gather takes at edge e is the wrapped node number of e. -/
theorem start_at (x : (⟨S800000, .i32⟩ : BufTy).Contents (Elt Ideal)) (e : Fin 800000) :
    val_main_v5 (F := Ideal) x (ix2 e (0 : Fin 1)) = GraphProp.wrap (x (ix1 e)) := by
  have hi : idx_main_v5 (ix2 e (0 : Fin 1)) = ix1 e := funext fun a => Fin.ext (by match a with | ⟨0, _⟩ => rfl)
  rw [val_main_v5_apply, hi, val_main_v4_apply, val_main_v1_apply, val_main_v3_apply, val_main_v0_apply, val_main_v2_apply,
    val_main_c_apply, val_main_c_0_apply]
  rfl

/-- Entry (e, c) of the gathered table: the table's row for e's node number, column c. -/
theorem gather_at (x0 : (⟨S50000x64, .f32⟩ : BufTy).Contents (Elt Ideal)) (x : (⟨S800000, .i32⟩ : BufTy).Contents (Elt Ideal)) (e : Fin 800000) (c : Fin 64) :
    val_main_v6 (F := Ideal) x0 x (ix2 e c) = x0 (ix2 (GraphProp.rowOf (x (ix1 e))) c) := by
  unfold val_main_v6
  refine (RowGather.gather_rows_apply gather_S50000x64_S800000x1_S800000x64_1_0_n_n_0_1_164 rfl rfl rfl rfl rfl x0
    (val_main_v5 (F := Ideal) x) e c (by decide)).trans ?_
  rw [start_at]
  rfl

/-- The three other gathers of the program are the same function of the table and the node numbers. -/
theorem gather13_at (x0 : (⟨S50000x64, .f32⟩ : BufTy).Contents (Elt Ideal)) (x : (⟨S800000, .i32⟩ : BufTy).Contents (Elt Ideal)) (e : Fin 800000) (c : Fin 64) :
    val_main_v13 (F := Ideal) x0 x (ix2 e c) = x0 (ix2 (GraphProp.rowOf (x (ix1 e))) c) := gather_at x0 x e c
theorem gather33_at (x0 : (⟨S50000x64, .f32⟩ : BufTy).Contents (Elt Ideal)) (x : (⟨S800000, .i32⟩ : BufTy).Contents (Elt Ideal)) (e : Fin 800000) (c : Fin 64) :
    val_main_v33 (F := Ideal) x0 x (ix2 e c) = x0 (ix2 (GraphProp.rowOf (x (ix1 e))) c) := gather_at x0 x e c
theorem gather40_at (x0 : (⟨S50000x64, .f32⟩ : BufTy).Contents (Elt Ideal)) (x : (⟨S800000, .i32⟩ : BufTy).Contents (Elt Ideal)) (e : Fin 800000) (c : Fin 64) :
    val_main_v40 (F := Ideal) x0 x (ix2 e c) = x0 (ix2 (GraphProp.rowOf (x (ix1 e))) c) := gather_at x0 x e c

/-! ### Three 64-column arrays laid side by side, read in each slab -/

section
variable (p q r : (⟨S800000x64, .f32⟩ : BufTy).Contents (Elt Ideal)) (e : Fin 800000) (c : Fin 64)

/-- Column c of the first slab is column c of the first array. -/
theorem cat_lo :
    concatenate S800000x192 1 [⟨S800000x64, p⟩, ⟨S800000x64, q⟩, ⟨S800000x64, r⟩]
      concatenates_S800000x64_S800000x64_S800000x64_S800000x192_d1 (ix2 e (GraphProp.lo c)) = p (ix2 e c) :=
  concatenate_apply_piece (1 : Fin S800000x192.rank) _ _ (ix2 e (GraphProp.lo c)) 0 (by show (0 : Nat) < 3; omega) S800000x64 p rfl rfl 0 rfl (ix2 e c)
    (fun b hb => by
      match b, hb with
      | ⟨0, _⟩, _ => rfl
      | ⟨1, _⟩, hb => exact absurd (Fin.ext rfl) hb)
    (Nat.zero_add _)

/-- Column c of the second slab is column c of the second array. -/
theorem cat_mid :
    concatenate S800000x192 1 [⟨S800000x64, p⟩, ⟨S800000x64, q⟩, ⟨S800000x64, r⟩]
      concatenates_S800000x64_S800000x64_S800000x64_S800000x192_d1 (ix2 e (GraphProp.mid c)) = q (ix2 e c) :=
  concatenate_apply_piece (1 : Fin S800000x192.rank) _ _ (ix2 e (GraphProp.mid c)) 1 (by show (1 : Nat) < 3; omega) S800000x64 q rfl rfl 64 rfl (ix2 e c)
    (fun b hb => by
      match b, hb with
      | ⟨0, _⟩, _ => rfl
      | ⟨1, _⟩, hb => exact absurd (Fin.ext rfl) hb)
    rfl

/-- Column c of the third slab is column c of the third array. -/
theorem cat_hi :
    concatenate S800000x192 1 [⟨S800000x64, p⟩, ⟨S800000x64, q⟩, ⟨S800000x64, r⟩]
      concatenates_S800000x64_S800000x64_S800000x64_S800000x192_d1 (ix2 e (GraphProp.hi c)) = r (ix2 e c) :=
  concatenate_apply_piece (1 : Fin S800000x192.rank) _ _ (ix2 e (GraphProp.hi c)) 2 (by show (2 : Nat) < 3; omega) S800000x64 r rfl rfl 128 rfl (ix2 e c)
    (fun b hb => by
      match b, hb with
      | ⟨0, _⟩, _ => rfl
      | ⟨1, _⟩, hb => exact absurd (Fin.ext rfl) hb)
    rfl

end

/-- The forward perceptron's 192-wide input row of edge e, read in each slab: the first node's row, the second node's row, the
    edge's own features. -/
theorem rowF_lo (x0 : (⟨S50000x64, .f32⟩ : BufTy).Contents (Elt Ideal)) (x1 : (⟨S800000x64, .f32⟩ : BufTy).Contents (Elt Ideal)) (x14 : (⟨S800000, .i32⟩ : BufTy).Contents (Elt Ideal)) (x15 : (⟨S800000, .i32⟩ : BufTy).Contents (Elt Ideal)) (e : Fin 800000) (c : Fin 64) :
    val_main_v14 (F := Ideal) x0 x1 x14 x15 (ix2 e (GraphProp.lo c)) = x0 (ix2 (GraphProp.rowOf (x14 (ix1 e))) c) :=
  (cat_lo _ _ _ e c).trans (gather_at x0 x14 e c)
theorem rowF_mid (x0 : (⟨S50000x64, .f32⟩ : BufTy).Contents (Elt Ideal)) (x1 : (⟨S800000x64, .f32⟩ : BufTy).Contents (Elt Ideal)) (x14 : (⟨S800000, .i32⟩ : BufTy).Contents (Elt Ideal)) (x15 : (⟨S800000, .i32⟩ : BufTy).Contents (Elt Ideal)) (e : Fin 800000) (c : Fin 64) :
    val_main_v14 (F := Ideal) x0 x1 x14 x15 (ix2 e (GraphProp.mid c)) = x0 (ix2 (GraphProp.rowOf (x15 (ix1 e))) c) :=
  (cat_mid _ _ _ e c).trans (gather13_at x0 x15 e c)
theorem rowF_hi (x0 : (⟨S50000x64, .f32⟩ : BufTy).Contents (Elt Ideal)) (x1 : (⟨S800000x64, .f32⟩ : BufTy).Contents (Elt Ideal)) (x14 : (⟨S800000, .i32⟩ : BufTy).Contents (Elt Ideal)) (x15 : (⟨S800000, .i32⟩ : BufTy).Contents (Elt Ideal)) (e : Fin 800000) (c : Fin 64) :
    val_main_v14 (F := Ideal) x0 x1 x14 x15 (ix2 e (GraphProp.hi c)) = x1 (ix2 e c) :=
  cat_hi _ _ _ e c

/-- Entry (e, k) of the forward perceptron's hidden layer: the 192-column product cut into its three slabs, the bias, the
    negative part cut to zero. -/
theorem hiddenF_at (x0 : (⟨S50000x64, .f32⟩ : BufTy).Contents (Elt Ideal)) (x1 : (⟨S800000x64, .f32⟩ : BufTy).Contents (Elt Ideal)) (x2 : (⟨S192x128, .f32⟩ : BufTy).Contents (Elt Ideal)) (x3 : (⟨S128, .f32⟩ : BufTy).Contents (Elt Ideal)) (x14 : (⟨S800000, .i32⟩ : BufTy).Contents (Elt Ideal)) (x15 : (⟨S800000, .i32⟩ : BufTy).Contents (Elt Ideal)) (e : Fin 800000) (k : Fin 128) :
    val_main_v19 (F := Ideal) x0 x1 x2 x3 x14 x15 (ix2 e k)
      = max ((((∑ a : Fin 64, x0 (ix2 (GraphProp.rowOf (x14 (ix1 e))) a) * x2 (ix2 (GraphProp.lo a) k))
          + ∑ a : Fin 64, x0 (ix2 (GraphProp.rowOf (x15 (ix1 e))) a) * x2 (ix2 (GraphProp.mid a) k))
          + ∑ a : Fin 64, x1 (ix2 e a) * x2 (ix2 (GraphProp.hi a) k)) + x3 (ix1 k)) 0 := by
  have hl : ∀ r : Fin 192, lidx_main_v15 (ix2 e k) r = ix2 e r := fun r =>
    funext fun a => Fin.ext (by match a with | ⟨0, _⟩ => rfl | ⟨1, _⟩ => rfl)
  have hr : ∀ r : Fin 192, ridx_main_v15 (ix2 e k) r = ix2 r k := fun r =>
    funext fun a => Fin.ext (by match a with | ⟨0, _⟩ => rfl | ⟨1, _⟩ => rfl)
  have hb : idx_main_v16 (idx_main_v17 (ix2 e k)) = ix1 k := funext fun a => Fin.ext (by match a with | ⟨0, _⟩ => rfl)
  rw [val_main_v19_apply, val_main_v18_apply, val_main_v15_apply, val_main_v17_apply, val_main_v16_apply, hb, val_main_call0_v0_apply,
    val_main_call0_cst_apply, Ideal.maximumf_def, Ideal.addf_def, Ideal.ofBits_def, Ideal.ofBits_zero_f32, GraphProp.sum192_three]
  simp only [hl, hr, rowF_lo, rowF_mid, rowF_hi]

/-- Entry (e, j) of the reference's forward messages. -/
theorem msgF_at (x0 : (⟨S50000x64, .f32⟩ : BufTy).Contents (Elt Ideal)) (x1 : (⟨S800000x64, .f32⟩ : BufTy).Contents (Elt Ideal)) (x2 : (⟨S192x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x14 : (⟨S800000, .i32⟩ : BufTy).Contents (Elt Ideal)) (x15 : (⟨S800000, .i32⟩ : BufTy).Contents (Elt Ideal)) (e : Fin 800000) (j : Fin 128) :
    val_main_v23 (F := Ideal) x0 x1 x2 x3 x4 x5 x14 x15 (ix2 e j)
      = GraphProp.edgeMsg (fun a => x0 (ix2 (GraphProp.rowOf (x14 (ix1 e))) a)) (fun a => x0 (ix2 (GraphProp.rowOf (x15 (ix1 e))) a))
          (fun a => x1 (ix2 e a)) (fun r k => x2 (ix2 r k)) (fun k => x3 (ix1 k)) (fun k j => x4 (ix2 k j)) (fun j => x5 (ix1 j)) j := by
  have hl : ∀ k : Fin 128, lidx_main_v20 (ix2 e j) k = ix2 e k := fun k =>
    funext fun a => Fin.ext (by match a with | ⟨0, _⟩ => rfl | ⟨1, _⟩ => rfl)
  have hr : ∀ k : Fin 128, ridx_main_v20 (ix2 e j) k = ix2 k j := fun k =>
    funext fun a => Fin.ext (by match a with | ⟨0, _⟩ => rfl | ⟨1, _⟩ => rfl)
  have hb : idx_main_v21 (idx_main_v22 (ix2 e j)) = ix1 j := funext fun a => Fin.ext (by match a with | ⟨0, _⟩ => rfl)
  rw [val_main_v23_apply, val_main_v20_apply, val_main_v22_apply, val_main_v21_apply, hb, Ideal.addf_def]
  simp only [hl, hr, hiddenF_at]
  rfl

/-- The reverse perceptron's 192-wide input row of edge e, read in each slab: the first node's row, the second node's row, the
    edge's own features. -/
theorem rowR_lo (x0 : (⟨S50000x64, .f32⟩ : BufTy).Contents (Elt Ideal)) (x1 : (⟨S800000x64, .f32⟩ : BufTy).Contents (Elt Ideal)) (x14 : (⟨S800000, .i32⟩ : BufTy).Contents (Elt Ideal)) (x15 : (⟨S800000, .i32⟩ : BufTy).Contents (Elt Ideal)) (e : Fin 800000) (c : Fin 64) :
    val_main_v41 (F := Ideal) x0 x1 x14 x15 (ix2 e (GraphProp.lo c)) = x0 (ix2 (GraphProp.rowOf (x15 (ix1 e))) c) :=
  (cat_lo _ _ _ e c).trans (gather33_at x0 x15 e c)
theorem rowR_mid (x0 : (⟨S50000x64, .f32⟩ : BufTy).Contents (Elt Ideal)) (x1 : (⟨S800000x64, .f32⟩ : BufTy).Contents (Elt Ideal)) (x14 : (⟨S800000, .i32⟩ : BufTy).Contents (Elt Ideal)) (x15 : (⟨S800000, .i32⟩ : BufTy).Contents (Elt Ideal)) (e : Fin 800000) (c : Fin 64) :
    val_main_v41 (F := Ideal) x0 x1 x14 x15 (ix2 e (GraphProp.mid c)) = x0 (ix2 (GraphProp.rowOf (x14 (ix1 e))) c) :=
  (cat_mid _ _ _ e c).trans (gather40_at x0 x14 e c)
theorem rowR_hi (x0 : (⟨S50000x64, .f32⟩ : BufTy).Contents (Elt Ideal)) (x1 : (⟨S800000x64, .f32⟩ : BufTy).Contents (Elt Ideal)) (x14 : (⟨S800000, .i32⟩ : BufTy).Contents (Elt Ideal)) (x15 : (⟨S800000, .i32⟩ : BufTy).Contents (Elt Ideal)) (e : Fin 800000) (c : Fin 64) :
    val_main_v41 (F := Ideal) x0 x1 x14 x15 (ix2 e (GraphProp.hi c)) = x1 (ix2 e c) :=
  cat_hi _ _ _ e c

/-- Entry (e, k) of the reverse perceptron's hidden layer: the 192-column product cut into its three slabs, the bias, the
    negative part cut to zero. -/
theorem hiddenR_at (x0 : (⟨S50000x64, .f32⟩ : BufTy).Contents (Elt Ideal)) (x1 : (⟨S800000x64, .f32⟩ : BufTy).Contents (Elt Ideal)) (x6 : (⟨S192x128, .f32⟩ : BufTy).Contents (Elt Ideal)) (x7 : (⟨S128, .f32⟩ : BufTy).Contents (Elt Ideal)) (x14 : (⟨S800000, .i32⟩ : BufTy).Contents (Elt Ideal)) (x15 : (⟨S800000, .i32⟩ : BufTy).Contents (Elt Ideal)) (e : Fin 800000) (k : Fin 128) :
    val_main_v46 (F := Ideal) x0 x1 x6 x7 x14 x15 (ix2 e k)
      = max ((((∑ a : Fin 64, x0 (ix2 (GraphProp.rowOf (x15 (ix1 e))) a) * x6 (ix2 (GraphProp.lo a) k))
          + ∑ a : Fin 64, x0 (ix2 (GraphProp.rowOf (x14 (ix1 e))) a) * x6 (ix2 (GraphProp.mid a) k))
          + ∑ a : Fin 64, x1 (ix2 e a) * x6 (ix2 (GraphProp.hi a) k)) + x7 (ix1 k)) 0 := by
  have hl : ∀ r : Fin 192, lidx_main_v42 (ix2 e k) r = ix2 e r := fun r =>
    funext fun a => Fin.ext (by match a with | ⟨0, _⟩ => rfl | ⟨1, _⟩ => rfl)
  have hr : ∀ r : Fin 192, ridx_main_v42 (ix2 e k) r = ix2 r k := fun r =>
    funext fun a => Fin.ext (by match a with | ⟨0, _⟩ => rfl | ⟨1, _⟩ => rfl)
  have hb : idx_main_v43 (idx_main_v44 (ix2 e k)) = ix1 k := funext fun a => Fin.ext (by match a with | ⟨0, _⟩ => rfl)
  rw [val_main_v46_apply, val_main_v45_apply, val_main_v42_apply, val_main_v44_apply, val_main_v43_apply, hb, val_main_call1_v0_apply,
    val_main_call1_cst_apply, Ideal.maximumf_def, Ideal.addf_def, Ideal.ofBits_def, Ideal.ofBits_zero_f32, GraphProp.sum192_three]
  simp only [hl, hr, rowR_lo, rowR_mid, rowR_hi]

/-- Entry (e, j) of the reference's reverse messages: the two node rows exchanged, the reverse perceptron's weights. -/
theorem msgR_at (x0 : (⟨S50000x64, .f32⟩ : BufTy).Contents (Elt Ideal)) (x1 : (⟨S800000x64, .f32⟩ : BufTy).Contents (Elt Ideal)) (x6 : (⟨S192x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S800000, .i32⟩ : BufTy).Contents (Elt Ideal)) (x15 : (⟨S800000, .i32⟩ : BufTy).Contents (Elt Ideal)) (e : Fin 800000) (j : Fin 128) :
    val_main_v50 (F := Ideal) x0 x1 x6 x7 x8 x9 x14 x15 (ix2 e j)
      = GraphProp.edgeMsg (fun a => x0 (ix2 (GraphProp.rowOf (x15 (ix1 e))) a)) (fun a => x0 (ix2 (GraphProp.rowOf (x14 (ix1 e))) a))
          (fun a => x1 (ix2 e a)) (fun r k => x6 (ix2 r k)) (fun k => x7 (ix1 k)) (fun k j => x8 (ix2 k j)) (fun j => x9 (ix1 j)) j := by
  have hl : ∀ k : Fin 128, lidx_main_v47 (ix2 e j) k = ix2 e k := fun k =>
    funext fun a => Fin.ext (by match a with | ⟨0, _⟩ => rfl | ⟨1, _⟩ => rfl)
  have hr : ∀ k : Fin 128, ridx_main_v47 (ix2 e j) k = ix2 k j := fun k =>
    funext fun a => Fin.ext (by match a with | ⟨0, _⟩ => rfl | ⟨1, _⟩ => rfl)
  have hb : idx_main_v48 (idx_main_v49 (ix2 e j)) = ix1 j := funext fun a => Fin.ext (by match a with | ⟨0, _⟩ => rfl)
  rw [val_main_v50_apply, val_main_v47_apply, val_main_v49_apply, val_main_v48_apply, hb, Ideal.addf_def]
  simp only [hl, hr, hiddenR_at]
  rfl

end Cert.ReferenceIdeal.RefMsg

end
-- ==== Proof.RefOut.lean ====
/-
  The reference's result, entry by entry. Each direction's messages are added into a zero table at the rows their node
  numbers name, and the two tables are added: entry (n, a) is what node n collects. The node update lays the collected
  row and the old state side by side as one 192-wide row and multiplies by the whole weight; a sum over 192 columns is the
  sum over its 128-column slab plus the sum over its 64-column slab, so entry (n, j) of the result is node n's new state.
-/
import proofs.«426496_j90744069030597_2_alg».proof.Proof.Gen.ReferenceIdeal.Read
import proofs.«426496_j90744069030597_2_alg».proof.Proof.Spec
import proofs.«426496_j90744069030597_2_alg».proof.Proof.Laws
import proofs.«426496_j90744069030597_2_alg».proof.Proof.LibRowGather
import proofs.«426496_j90744069030597_2_alg».proof.Proof.LibScatterRows
import proofs.«426496_j90744069030597_2_alg».proof.Proof.LibScatterHit
import proofs.«426496_j90744069030597_2_alg».proof.Proof.RefMsg
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.RefOut

open Cert.ReferenceIdeal Cert.ReferenceIdeal.Gen Cert.ReferenceIdeal.Read Idealize.ShloMosaic Idealize.ShloMosaic.TcCoe Idealize.ShloMosaic.ValueIdx Idealize.SL.Sem

/-- Entry (n, a) of the reference's collected table, over its two message arrays. -/
theorem agg_at (x0 : (⟨S50000x64, .f32⟩ : BufTy).Contents (Elt Ideal)) (x1 : (⟨S800000x64, .f32⟩ : BufTy).Contents (Elt Ideal)) (x2 : (⟨S192x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S192x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S800000, .i32⟩ : BufTy).Contents (Elt Ideal)) (x15 : (⟨S800000, .i32⟩ : BufTy).Contents (Elt Ideal)) (n : Fin 50000) (a : Fin 128) :
    val_main_v54 (F := Ideal) x0 x1 x2 x3 x4 x5 x6 x7 x8 x9 x14 x15 (ix2 n a)
      = GraphProp.collect (fun e => val_main_v23 (F := Ideal) x0 x1 x2 x3 x4 x5 x14 x15 (ix2 e a))
          (fun e => val_main_v50 (F := Ideal) x0 x1 x6 x7 x8 x9 x14 x15 (ix2 e a))
          (fun e => x15 (ix1 e)) (fun e => x14 (ix1 e)) n := by
  -- the index column of a scatter, read at row e, is the node number of edge e
  have hcol : ∀ (x : (⟨S800000, .i32⟩ : BufTy).Contents (Elt Ideal)) (e : Fin 800000),
      broadcastInDim S800000x1 ![0] bcast_S800000_S800000x1_0 x (ix2 e (0 : Fin 1)) = x (ix1 e) := fun x e =>
    broadcastInDim_apply _ bcast_S800000_S800000x1_0 x (ix2 e (0 : Fin 1)) (ix1 e) (fun b => match b with
      | ⟨0, _⟩ => by show e.val = if (800000 : Nat) = 1 then 0 else e.val; rw [if_neg (by decide)])
  -- the forward table: a zero table with the forward messages added in at the "to" rows
  have h26 : val_main_v26 (F := Ideal) x0 x1 x2 x3 x4 x5 x14 x15 (ix2 n a)
      = 0 + ∑ e : Fin 800000, if (x15 (ix1 e)).toInt = (n.val : ℤ) then val_main_v23 (F := Ideal) x0 x1 x2 x3 x4 x5 x14 x15 (ix2 e a) else 0 := by
    unfold val_main_v26
    refine (RowScatter.scatterAdd_rows_apply scatter_S50000x128_S800000x1_S800000x128_1_0_0_1 rfl rfl rfl rfl _ _ _ n a).trans ?_
    refine congrArg₂ (fun u v : EReal => u + v) ?_ (Finset.sum_congr rfl fun e _ => ?_)
    · rw [val_main_v24_apply, val_main_cst_apply, Ideal.ofBits_def, Ideal.ofBits_zero_f32]
    · unfold val_main_v25
      rw [hcol x15 e]
  -- the reverse table: the same with the reverse messages at the "from" rows
  have h53 : val_main_v53 (F := Ideal) x0 x1 x6 x7 x8 x9 x14 x15 (ix2 n a)
      = 0 + ∑ e : Fin 800000, if (x14 (ix1 e)).toInt = (n.val : ℤ) then val_main_v50 (F := Ideal) x0 x1 x6 x7 x8 x9 x14 x15 (ix2 e a) else 0 := by
    unfold val_main_v53
    refine (RowScatter.scatterAdd_rows_apply scatter_S50000x128_S800000x1_S800000x128_1_0_0_1 rfl rfl rfl rfl _ _ _ n a).trans ?_
    refine congrArg₂ (fun u v : EReal => u + v) ?_ (Finset.sum_congr rfl fun e _ => ?_)
    · rw [val_main_v51_apply, val_main_cst_7_apply, Ideal.ofBits_def, Ideal.ofBits_zero_f32]
    · unfold val_main_v52
      rw [hcol x14 e]
  rw [val_main_v54_apply, Ideal.addf_def, h26, h53]
  rfl

/-- Entry (n, j) of the reference's result is node n's new state at feature j. -/
theorem out_at (x0 : (⟨S50000x64, .f32⟩ : BufTy).Contents (Elt Ideal)) (x1 : (⟨S800000x64, .f32⟩ : BufTy).Contents (Elt Ideal)) (x2 : (⟨S192x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S192x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S192x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S800000, .i32⟩ : BufTy).Contents (Elt Ideal)) (x15 : (⟨S800000, .i32⟩ : BufTy).Contents (Elt Ideal)) (n : Fin 50000) (j : Fin 64) :
    val_main_v65 (F := Ideal) x0 x1 x2 x3 x4 x5 x6 x7 x8 x9 x10 x11 x12 x13 x14 x15 (ix2 n j)
      = (GraphProp.mkInputs x0 x1 x2 x3 x4 x5 x6 x7 x8 x9 x10 x11 x12 x13 x14 x15).out n j := by
  -- the two bias rows, and the zero table the cut compares with, read at an index
  have hb2 : val_main_v63 (F := Ideal) x13 (ix2 n j) = x13 (ix1 j) := by
    rw [val_main_v63_apply, val_main_v62_apply]
    exact congrArg x13 (funext fun b => Fin.ext (by match b with | ⟨0, _⟩ => rfl))
  have hb1 : ∀ k : Fin 128, val_main_v58 (F := Ideal) x11 (ix2 n k) = x11 (ix1 k) := fun k => by
    rw [val_main_v58_apply, val_main_v57_apply]
    exact congrArg x11 (funext fun b => Fin.ext (by match b with | ⟨0, _⟩ => rfl))
  have hz : ∀ i : S50000x128.Idx, val_main_call2_v0 (F := Ideal) i = 0 := fun i => by
    rw [val_main_call2_v0_apply, val_main_call2_cst_apply, Ideal.ofBits_def, Ideal.ofBits_zero_f32]
  -- the 192-wide row of node n: what it collected on the first 128 columns, its old state on the last 64
  have h55l : ∀ a : Fin 128, val_main_v55 (F := Ideal) x0 x1 x2 x3 x4 x5 x6 x7 x8 x9 x14 x15 (ix2 n (GraphProp.lo128 a)) = val_main_v54 (F := Ideal) x0 x1 x2 x3 x4 x5 x6 x7 x8 x9 x14 x15 (ix2 n a) := fun a => by
    unfold val_main_v55
    exact concatenate_pair_apply_left _ _ _ concatenates_S50000x128_S50000x64_S50000x192_d1 (ix2 n (GraphProp.lo128 a)) rfl (ix2 n a)
      (fun b => by match b with | ⟨0, _⟩ => rfl | ⟨1, _⟩ => rfl)
  have h55r : ∀ a : Fin 64, val_main_v55 (F := Ideal) x0 x1 x2 x3 x4 x5 x6 x7 x8 x9 x14 x15 (ix2 n (GraphProp.hi a)) = x0 (ix2 n a) := fun a => by
    unfold val_main_v55
    exact concatenate_pair_apply_right _ _ _ concatenates_S50000x128_S50000x64_S50000x192_d1 (ix2 n (GraphProp.hi a)) rfl rfl (ix2 n a)
      (fun b hb => by
        match b, hb with
        | ⟨0, _⟩, _ => rfl
        | ⟨1, _⟩, hb => exact absurd (Fin.ext rfl) hb)
      (by show a.val + 128 = 128 + a.val; omega)
  -- what node n collected is the specification's, the two message arrays being the specification's messages
  have hagg : ∀ a : Fin 128, val_main_v54 (F := Ideal) x0 x1 x2 x3 x4 x5 x6 x7 x8 x9 x14 x15 (ix2 n a) = (GraphProp.mkInputs x0 x1 x2 x3 x4 x5 x6 x7 x8 x9 x10 x11 x12 x13 x14 x15).agg n a := fun a => by
    rw [agg_at]
    unfold GraphProp.Inputs.agg GraphProp.Inputs.msgF GraphProp.Inputs.msgR
    simp only [RefMsg.msgF_at, RefMsg.msgR_at]
    rfl
  -- the first layer at (n, k): the sum over the 192 columns is the sum over the 128 plus the sum over the 64
  have h56 : ∀ k : Fin 128, val_main_v56 (F := Ideal) x0 x1 x2 x3 x4 x5 x6 x7 x8 x9 x10 x14 x15 (ix2 n k)
      = (∑ a : Fin 128, (GraphProp.mkInputs x0 x1 x2 x3 x4 x5 x6 x7 x8 x9 x10 x11 x12 x13 x14 x15).agg n a * x10 (ix2 (GraphProp.lo128 a) k))
        + ∑ a : Fin 64, x0 (ix2 n a) * x10 (ix2 (GraphProp.hi a) k) := fun k => by
    have el : ∀ r : Fin 192, lidx_main_v56 (ix2 n k) r = ix2 n r := fun r =>
      funext fun b => Fin.ext (by match b with | ⟨0, _⟩ => rfl | ⟨1, _⟩ => rfl)
    have er : ∀ r : Fin 192, ridx_main_v56 (ix2 n k) r = ix2 r k := fun r =>
      funext fun b => Fin.ext (by match b with | ⟨0, _⟩ => rfl | ⟨1, _⟩ => rfl)
    refine (val_main_v56_apply x0 x1 x2 x3 x4 x5 x6 x7 x8 x9 x10 x14 x15 (ix2 n k)).trans ?_
    refine (Finset.sum_congr rfl (g := fun r : Fin 192 => val_main_v55 (F := Ideal) x0 x1 x2 x3 x4 x5 x6 x7 x8 x9 x14 x15 (ix2 n r) * x10 (ix2 r k)) fun r _ => by rw [el r, er r]).trans ?_
    refine (GraphProp.sum192_two _).trans ?_
    refine congrArg₂ (fun u v : EReal => u + v) (Finset.sum_congr rfl fun a _ => ?_) (Finset.sum_congr rfl fun a _ => ?_)
    · show val_main_v55 (F := Ideal) x0 x1 x2 x3 x4 x5 x6 x7 x8 x9 x14 x15 (ix2 n (GraphProp.lo128 a)) * _ = _
      rw [h55l a, hagg a]
    · show val_main_v55 (F := Ideal) x0 x1 x2 x3 x4 x5 x6 x7 x8 x9 x14 x15 (ix2 n (GraphProp.hi a)) * _ = _
      rw [h55r a]
  -- the hidden row at (n, k): the first layer, its bias, the negative part cut off
  have h60 : ∀ k : Fin 128, val_main_v60 (F := Ideal) x0 x1 x2 x3 x4 x5 x6 x7 x8 x9 x10 x11 x14 x15 (ix2 n k)
      = max ((((∑ a : Fin 128, (GraphProp.mkInputs x0 x1 x2 x3 x4 x5 x6 x7 x8 x9 x10 x11 x12 x13 x14 x15).agg n a * x10 (ix2 (GraphProp.lo128 a) k))
        + ∑ a : Fin 64, x0 (ix2 n a) * x10 (ix2 (GraphProp.hi a) k)) + x11 (ix1 k))) 0 := fun k => by
    rw [val_main_v60_apply, Ideal.maximumf_def, val_main_v59_apply, Ideal.addf_def, h56 k, hb1 k, hz]
  -- the second layer, its bias, and the old state added
  have el2 : ∀ k : Fin 128, lidx_main_v61 (ix2 n j) k = ix2 n k := fun k =>
    funext fun b => Fin.ext (by match b with | ⟨0, _⟩ => rfl | ⟨1, _⟩ => rfl)
  have er2 : ∀ k : Fin 128, ridx_main_v61 (ix2 n j) k = ix2 k j := fun k =>
    funext fun b => Fin.ext (by match b with | ⟨0, _⟩ => rfl | ⟨1, _⟩ => rfl)
  rw [val_main_v65_apply, Ideal.addf_def, val_main_v64_apply, Ideal.addf_def, val_main_v61_apply, hb2]
  rw [Finset.sum_congr rfl (g := fun k : Fin 128 => max ((((∑ a : Fin 128, (GraphProp.mkInputs x0 x1 x2 x3 x4 x5 x6 x7 x8 x9 x10 x11 x12 x13 x14 x15).agg n a * x10 (ix2 (GraphProp.lo128 a) k))
        + ∑ a : Fin 64, x0 (ix2 n a) * x10 (ix2 (GraphProp.hi a) k)) + x11 (ix1 k))) 0 * x12 (ix2 k j)) fun k _ => by rw [el2 k, er2 k, h60 k]]
  rfl

end Cert.ReferenceIdeal.RefOut

end
-- ==== Proof.lean ====
/-
  One round of message passing on a graph (gather the two end nodes' states of every edge, a two-layer perceptron per
  edge and direction, add each message into the node it points at, a two-layer perceptron per node with a residual):
  the tiled program and the plain one compute the same function of their sixteen arguments over the extended reals.

  The tiled program computes the first layer of each perceptron as a sum of partial products over slabs of the weight
  where the plain one multiplies a concatenated row by the whole weight, and it adds both directions' messages in one
  stacked scatter where the plain one adds two scatters' results: regroupings of finite sums, which hold in the extended
  reals by commutativity and associativity alone. Rounding to a narrower float format is the identity there. The one
  place the two differ as printed is a node number outside the table, which the tiled program's gather answers with a
  not-a-number fill and the plain one by clamping; the precondition keeps every node number in 0 … 49999.

  Both programs run and leave their arguments as launched (the three frames); the tiled program's idealization rewrote
  nothing; and the two results agree entry by entry: each is node n's new state at feature j.
-/
import proofs.«426496_j90744069030597_2_alg».proof.Defs
import proofs.«426496_j90744069030597_2_alg».proof.Proof.Gen.Kernel
import proofs.«426496_j90744069030597_2_alg».proof.Proof.Gen.Kernel.Skeleton
import proofs.«426496_j90744069030597_2_alg».proof.Proof.Gen.Kernel.Launch
import proofs.«426496_j90744069030597_2_alg».proof.Proof.Gen.Kernel.Points
import proofs.«426496_j90744069030597_2_alg».proof.Proof.Gen.Kernel.Frame
import proofs.«426496_j90744069030597_2_alg».proof.Proof.Gen.KernelIdeal
import proofs.«426496_j90744069030597_2_alg».proof.Proof.Gen.KernelIdeal.Skeleton
import proofs.«426496_j90744069030597_2_alg».proof.Proof.Gen.KernelIdeal.Launch
import proofs.«426496_j90744069030597_2_alg».proof.Proof.Gen.KernelIdeal.Points
import proofs.«426496_j90744069030597_2_alg».proof.Proof.Gen.KernelIdeal.Frame
import proofs.«426496_j90744069030597_2_alg».proof.Proof.Gen.ReferenceIdeal
import proofs.«426496_j90744069030597_2_alg».proof.Proof.Gen.Pre_finite_inputs
import proofs.«426496_j90744069030597_2_alg».proof.Proof.Gen.ReferenceIdeal.Run
import proofs.«426496_j90744069030597_2_alg».proof.Proof.Gen.ReferenceIdeal.Read
import proofs.«426496_j90744069030597_2_alg».proof.Proof.KernelRun
import proofs.«426496_j90744069030597_2_alg».proof.Proof.KernelValue
import proofs.«426496_j90744069030597_2_alg».proof.Proof.PreRange
import proofs.«426496_j90744069030597_2_alg».proof.Proof.RefOut
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with every node number a row of the table, both programs end with the
    same result array: entry (n, j) of each is node n's new state at feature j. -/
theorem algebraic : Cert.algebraic_KernelIdeal_ReferenceIdeal := by
  intro m ρ m' ρ' hpre hagree
  refine ⟨fun c => Cert.KernelIdeal.Gen.W6 m ρ c (Proc.devRef .tc Cert.KernelIdeal.main_v15),
    Cert.KernelIdeal.GenRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  obtain ⟨h0, h1, h2, h3, h4, h5, h6, h7, h8, h9, h10, h11, h12, h13, h14, h15⟩ := hagree c
  rw [h0, h1, h2, h3, h4, h5, h6, h7, h8, h9, h10, h11, h12, h13, h14, h15]
  funext i
  obtain ⟨n, j, rfl⟩ : ∃ (n : Fin 50000) (j : Fin 64), i = ix2 n j := ⟨i 0, i 1, eq_ix2 i⟩
  rw [Cert.ReferenceIdeal.RefOut.out_at]
  exact (Cert.KernelIdeal.KValue.result_at m ρ c (Cert.KernelIdeal.PreRange.from_range m hpre c)
    (Cert.KernelIdeal.PreRange.to_range m hpre c) n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
